-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x6400000 : Shape := ⟨2, ![2, 6400000]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S2x6400000 : S_.BroadcastsInDim S2x6400000 (![] : Fin 0 → Fin S2x6400000.rank)
  reducesTo_S2x6400000_S_d0_1 : S2x6400000.ReducesTo [0, 1] S_

variable [Facts]

def fn_part2 {F : FTy → Type} [FloatOps F] (main_arg1 : IVec S2x6400000 32) (main_v33 : IVec S_ 1) : IVec S_ 1 :=
  let main_c_12 : IVec S_ 32 := constantI S_ 32 0#32
  let main_v34 : IVec S2x6400000 32 := broadcastInDim S2x6400000 ![] bcast_S_S2x6400000 main_c_12
  let main_v35 : IVec S2x6400000 1 := cmpi .sge main_arg1 main_v34
  let main_c_13 : IVec S_ 32 := constantI S_ 32 100000#32
  let main_v36 : IVec S2x6400000 32 := broadcastInDim S2x6400000 ![] bcast_S_S2x6400000 main_c_13
  let main_v37 : IVec S2x6400000 1 := cmpi .slt main_arg1 main_v36
  let main_v38 : IVec S2x6400000 1 := andi main_v35 main_v37
  let main_c_14 : IVec S_ 1 := constantI S_ 1 1#1
  let main_v39 : IVec S_ 1 := (fun x v => Host.reduce IntOp.andi x v reducesTo_S2x6400000_S_d0_1 h_S_) main_v38 main_c_14
  let main_v40 : IVec S_ 1 := andi main_v33 main_v39
  main_v40

def fn_part1 {F : FTy → Type} [FloatOps F] (main_arg1 : IVec S2x6400000 32) (main_arg5 : FVec F S8 .f32) (main_arg6 : FVec F S8x4 .f32) (main_arg7 : FVec F S4 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x4 .f32 := Host.absf main_arg6
  let main_cst_8 : FVec F S_ .f32 := constant S_ .f32 0x7F800000#32
  let main_v25 : FVec F S8x4 .f32 := broadcastInDim S8x4 ![] bcast_S_S8x4 main_cst_8
  let main_v26 : IVec S8x4 1 := cmpf .olt main_v24 main_v25
  let main_c_9 : IVec S_ 1 := constantI S_ 1 1#1
  let main_v27 : IVec S_ 1 := (fun x v => Host.reduce IntOp.andi x v reducesTo_S8x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg1 main_v33

def fn {F : FTy → Type} [FloatOps F] (main_arg0 : FVec F S100000x32 .f32) (main_arg1 : IVec S2x6400000 32) (main_arg2 : FVec F S32x16 .f32) (main_arg3 : FVec F S16 .f32) (main_arg4 : FVec F S16x8 .f32) (main_arg5 : FVec F S8 .f32) (main_arg6 : FVec F S8x4 .f32) (main_arg7 : FVec F S4 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x16 .f32 := Host.absf main_arg2
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg1 main_arg5 main_arg6 main_arg7 main_v13 main_v16
-- ==== Kernel.lean ====
abbrev S100000x32 : Shape := ⟨2, ![100000, 32]⟩
abbrev S2x6400000 : Shape := ⟨2, ![2, 6400000]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S1x6400000 : Shape := ⟨2, ![1, 6400000]⟩
abbrev S6400000 : Shape := ⟨1, ![6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S10000x32 : Shape := ⟨2, ![10000, 32]⟩
abbrev S10000x16 : Shape := ⟨2, ![10000, 16]⟩
abbrev S1 : Shape := ⟨1, ![1]⟩
abbrev S1x1 : Shape := ⟨2, ![1, 1]⟩
abbrev S6500000x16 : Shape := ⟨2, ![6500000, 16]⟩
abbrev S1x16 : Shape := ⟨2, ![1, 16]⟩
abbrev S100000x8 : Shape := ⟨2, ![100000, 8]⟩
abbrev S10000x8 : Shape := ⟨2, ![10000, 8]⟩
abbrev S6500000x8 : Shape := ⟨2, ![6500000, 8]⟩
abbrev S1x8 : Shape := ⟨2, ![1, 8]⟩
abbrev S1x4 : Shape := ⟨2, ![1, 4]⟩
abbrev S100000x4 : Shape := ⟨2, ![100000, 4]⟩
abbrev S10000x4 : Shape := ⟨2, ![10000, 4]⟩

abbrev nBuf : Space → Nat
  | .hbm => 110
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S2x6400000, .i32⟩
  | .hbm, ⟨2, _⟩ => ⟨S32x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x4, .f32⟩
  | .hbm, ⟨7, _⟩ => ⟨S4, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S100000, .i32⟩
  | .hbm, ⟨13, _⟩ => ⟨S6500000, .i32⟩
  | .hbm, ⟨14, _⟩ => ⟨S6500000, .i32⟩
  | .hbm, ⟨15, _⟩ => ⟨S_, .f32⟩
  | .hbm, ⟨16, _⟩ => ⟨S6500000, .f32⟩
  | .hbm, ⟨17, _⟩ => ⟨S_, .f32⟩
  | .hbm, ⟨18, _⟩ => ⟨S100000, .f32⟩
  | .hbm, ⟨19, _⟩ => ⟨S6500000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S6500000, .i32⟩
  | .hbm, ⟨27, _⟩ => ⟨S6500000, .i1⟩
  | .hbm, ⟨28, _⟩ => ⟨S_, .i32⟩
  | .hbm, ⟨29, _⟩ => ⟨S6500000, .i32⟩
  | .hbm, ⟨30, _⟩ => ⟨S6500000, .i32⟩
  | .hbm, ⟨31, _⟩ => ⟨S6500000, .i32⟩
  | .hbm, ⟨32, _⟩ => ⟨S6500000x1, .i32⟩
  | .hbm, ⟨33, _⟩ => ⟨S6500000, .f32⟩
  | .hbm, ⟨34, _⟩ => ⟨S_, .i32⟩
  | .hbm, ⟨35, _⟩ => ⟨S6500000, .i32⟩
  | .hbm, ⟨36, _⟩ => ⟨S6500000, .i1⟩
  | .hbm, ⟨37, _⟩ => ⟨S_, .i32⟩
  | .hbm, ⟨38, _⟩ => ⟨S6500000, .i32⟩
  | .hbm, ⟨39, _⟩ => ⟨S6500000, .i32⟩
  | .hbm, ⟨40, _⟩ => ⟨S6500000, .i32⟩
  | .hbm, ⟨41, _⟩ => ⟨S6500000x1, .i32⟩
  | .hbm, ⟨42, _⟩ => ⟨S6500000, .f32⟩
  | .hbm, ⟨43, _⟩ => ⟨S6500000, .f32⟩
  | .hbm, ⟨44, _⟩ => ⟨S100000x16, .f32⟩
  | .hbm, ⟨45, _⟩ => ⟨S_, .i32⟩
  | .hbm, ⟨46, _⟩ => ⟨S6500000, .i32⟩
  | .hbm, ⟨47, _⟩ => ⟨S6500000, .i1⟩
  | .hbm, ⟨48, _⟩ => ⟨S_, .i32⟩
  | .hbm, ⟨49, _⟩ => ⟨S6500000, .i32⟩
  | .hbm, ⟨50, _⟩ => ⟨S6500000, .i32⟩
  | .hbm, ⟨51, _⟩ => ⟨S6500000, .i32⟩
  | .hbm, ⟨52, _⟩ => ⟨S6500000x1, .i32⟩
  | .hbm, ⟨53, _⟩ => ⟨S1, .i32⟩
  | .hbm, ⟨54, _⟩ => ⟨S_, .i32⟩
  | .hbm, ⟨55, _⟩ => ⟨S6500000x1, .i32⟩
  | .hbm, ⟨56, _⟩ => ⟨S6500000x1, .i1⟩
  | .hbm, ⟨57, _⟩ => ⟨S1x1, .i32⟩
  | .hbm, ⟨58, _⟩ => ⟨S6500000x1, .i32⟩
  | .hbm, ⟨59, _⟩ => ⟨S6500000x1, .i1⟩
  | .hbm, ⟨60, _⟩ => ⟨S6500000x1, .i1⟩
  | .hbm, ⟨61, _⟩ => ⟨S_, .i1⟩
  | .hbm, ⟨62, _⟩ => ⟨S6500000, .i1⟩
  | .hbm, ⟨63, _⟩ => ⟨S6500000x16, .f32⟩
  | .hbm, ⟨64, _⟩ => ⟨S6500000x16, .i1⟩
  | .hbm, ⟨65, _⟩ => ⟨S_, .f32⟩
  | .hbm, ⟨66, _⟩ => ⟨S6500000x16, .f32⟩
  | .hbm, ⟨67, _⟩ => ⟨S6500000x16, .f32⟩
  | .hbm, ⟨68, _⟩ => ⟨S6500000x1, .f32⟩
  | .hbm, ⟨69, _⟩ => ⟨S6500000x16, .f32⟩
  | .hbm, ⟨70, _⟩ => ⟨S6500000x16, .f32⟩
  | .hbm, ⟨71, _⟩ => ⟨S_, .f32⟩
  | .hbm, ⟨72, _⟩ => ⟨S100000x16, .f32⟩
  | .hbm, ⟨73, _⟩ => ⟨S6500000x1, .i32⟩
  | .hbm, ⟨74, _⟩ => ⟨S100000x16, .f32⟩
  | .hbm, ⟨75, _⟩ => ⟨S1x16, .f32⟩
  | .hbm, ⟨76, _⟩ => ⟨S100000x8, .f32⟩
  | .hbm, ⟨77, _⟩ => ⟨S_, .i32⟩
  | .hbm, ⟨78, _⟩ => ⟨S6500000, .i32⟩
  | .hbm, ⟨79, _⟩ => ⟨S6500000, .i1⟩
  | .hbm, ⟨80, _⟩ => ⟨S_, .i32⟩
  | .hbm, ⟨81, _⟩ => ⟨S6500000, .i32⟩
  | .hbm, ⟨82, _⟩ => ⟨S6500000, .i32⟩
  | .hbm, ⟨83, _⟩ => ⟨S6500000, .i32⟩
  | .hbm, ⟨84, _⟩ => ⟨S6500000x1, .i32⟩
  | .hbm, ⟨85, _⟩ => ⟨S1, .i32⟩
  | .hbm, ⟨86, _⟩ => ⟨S_, .i32⟩
  | .hbm, ⟨87, _⟩ => ⟨S6500000x1, .i32⟩
  | .hbm, ⟨88, _⟩ => ⟨S6500000x1, .i1⟩
  | .hbm, ⟨89, _⟩ => ⟨S1x1, .i32⟩
  | .hbm, ⟨90, _⟩ => ⟨S6500000x1, .i32⟩
  | .hbm, ⟨91, _⟩ => ⟨S6500000x1, .i1⟩
  | .hbm, ⟨92, _⟩ => ⟨S6500000x1, .i1⟩
  | .hbm, ⟨93, _⟩ => ⟨S_, .i1⟩
  | .hbm, ⟨94, _⟩ => ⟨S6500000, .i1⟩
  | .hbm, ⟨95, _⟩ => ⟨S6500000x8, .f32⟩
  | .hbm, ⟨96, _⟩ => ⟨S6500000x8, .i1⟩
  | .hbm, ⟨97, _⟩ => ⟨S_, .f32⟩
  | .hbm, ⟨98, _⟩ => ⟨S6500000x8, .f32⟩
  | .hbm, ⟨99, _⟩ => ⟨S6500000x8, .f32⟩
  | .hbm, ⟨100, _⟩ => ⟨S6500000x1, .f32⟩
  | .hbm, ⟨101, _⟩ => ⟨S6500000x8, .f32⟩
  | .hbm, ⟨102, _⟩ => ⟨S6500000x8, .f32⟩
  | .hbm, ⟨103, _⟩ => ⟨S_, .f32⟩
  | .hbm, ⟨104, _⟩ => ⟨S100000x8, .f32⟩
  | .hbm, ⟨105, _⟩ => ⟨S6500000x1, .i32⟩
  | .hbm, ⟨106, _⟩ => ⟨S100000x8, .f32⟩
  | .hbm, ⟨107, _⟩ => ⟨S1x8, .f32⟩
  | .hbm, ⟨108, _⟩ => ⟨S1x4, .f32⟩
  | .hbm, ⟨109, _⟩ => ⟨S100000x4, .f32⟩
  | .local _ .vmem, ⟨0, _⟩ => ⟨S10000x32, .f32⟩
  | .local _ .vmem, ⟨1, _⟩ => ⟨S10000x32, .f32⟩
  | .local _ .vmem, ⟨2, _⟩ => ⟨S32x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S10000x8, .f32⟩
  | .local _ .vmem, ⟨13, _⟩ => ⟨S1x8, .f32⟩
  | .local _ .vmem, ⟨14, _⟩ => ⟨S8x4, .f32⟩
  | .local _ .vmem, ⟨15, _⟩ => ⟨S1x4, .f32⟩
  | .local _ .vmem, ⟨16, _⟩ => ⟨S10000x4, .f32⟩
  | .local _ .vmem, ⟨17, _⟩ => ⟨S10000x4, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_5 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_6 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S_S6500000x1 : S_.BroadcastsInDim S6500000x1 (![] : Fin 0 → Fin S6500000x1.rank)
  bcast_S1_S1x1_1 : S1.BroadcastsInDim S1x1 (![1] : Fin 1 → Fin S1x1.rank)
  bcast_S1x1_S6500000x1_0_1 : S1x1.BroadcastsInDim S6500000x1 (![0, 1] : Fin 2 → Fin S6500000x1.rank)
  reducesTo_S6500000x1_S6500000_d1 : S6500000x1.ReducesTo [1] S6500000
  h_S_ : 0 < S_.numel
  bcast_S6500000_S6500000x16_0 : S6500000.BroadcastsInDim S6500000x16 (![0] : Fin 1 → Fin S6500000x16.rank)
  bcast_S_S6500000x16 : S_.BroadcastsInDim S6500000x16 (![] : Fin 0 → Fin S6500000x16.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S6500000_S6500000x8_0 : S6500000.BroadcastsInDim S6500000x8 (![0] : Fin 1 → Fin S6500000x8.rank)
  bcast_S_S6500000x8 : S_.BroadcastsInDim S6500000x8 (![] : Fin 0 → Fin S6500000x8.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  shapeCasts_S8_S1x8 : S8.ShapeCasts S1x8
  shapeCasts_S4_S1x4 : S4.ShapeCasts S1x4
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S10000x4_S10000x4_0_0 : ∀ a, (![0, 0] : Fin 2 → Nat) a + S10000x4.size a ≤ S10000x4.size a
  h_S10000x4 : 0 < S10000x4.numel
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x32_S32x16_S10000x16_1_0_0_1_n_n_wf : DotDims.WF S10000x32 S32x16 S10000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x8_S10000x8_1_0_0_1_n_n_wf : DotDims.WF S10000x16 S16x8 S10000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  dot_S10000x8_S8x4_S10000x4_1_0_0_1_n_n_wf : DotDims.WF S10000x8 S8x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .f32 = 32 ∨ (Rect.block (s := S32x16) S32x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S100000x8.size a
  hwx1_3 : ∀ i : grid1.Coords, EltTy.bits .f32 = 32 ∨ (Rect.block (s := S100000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S100000x8.size a
  hwx2_0 : ∀ i : grid2.Coords, EltTy.bits .f32 = 32 ∨ (Rect.block (s := S100000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x4.size a ≤ S8x4.size a
  hwx2_2 : ∀ i : grid2.Coords, EltTy.bits .f32 = 32 ∨ (Rect.block (s := S8x4) S8x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x4.size a ≤ S100000x4.size a
  hwx2_4 : ∀ i : grid2.Coords, EltTy.bits .f32 = 32 ∨ (Rect.block (s := S100000x4) S10000x4.size (cc2_transform_4 i) (hinb2_4 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S8x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S10000x4.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x6400000 : Shape := ⟨2, ![2, 6400000]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x4 : Shape := ⟨2, ![8, 4]⟩
abbrev S4 : Shape := ⟨1, ![4]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩
abbrev S100000x4 : Shape := ⟨2, ![100000, 4]⟩
abbrev S1x4 : Shape := ⟨2, ![1, 4]⟩

abbrev nBuf : Space → Nat
  | .hbm => 130
  | .vmem => 0
  | .smem => 0
  | _ => 0

abbrev hbmTy0_0 (i : Nat) : BufTy := match i % 128 with
  | 0 => ⟨S100000x32, .f32⟩
  | 1 => ⟨S2x6400000, .i32⟩
  | 2 => ⟨S32x16, .f32⟩
  | 3 => ⟨S16, .f32⟩
  | 4 => ⟨S16x8, .f32⟩
  | 5 => ⟨S8, .f32⟩
  | 6 => ⟨S8x4, .f32⟩
  | 7 => ⟨S4, .f32⟩
  | 8 => ⟨S100000, .i32⟩
  | 9 => ⟨S1x6400000, .i32⟩
  | 10 => ⟨S6400000, .i32⟩
  | 11 => ⟨S6500000, .i32⟩
  | 12 => ⟨S1x6400000, .i32⟩
  | 13 => ⟨S6400000, .i32⟩
  | 14 => ⟨S6500000, .i32⟩
  | 15 => ⟨S_, .f32⟩
  | 16 => ⟨S6500000, .f32⟩
  | 17 => ⟨S_, .f32⟩
  | 18 => ⟨S100000, .f32⟩
  | 19 => ⟨S6500000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S6500000, .i32⟩
  | 27 => ⟨S6500000, .i1⟩
  | 28 => ⟨S_, .i32⟩
  | 29 => ⟨S6500000, .i32⟩
  | 30 => ⟨S6500000, .i32⟩
  | 31 => ⟨S6500000, .i32⟩
  | 32 => ⟨S6500000x1, .i32⟩
  | 33 => ⟨S6500000, .f32⟩
  | 34 => ⟨S_, .i32⟩
  | 35 => ⟨S6500000, .i32⟩
  | 36 => ⟨S6500000, .i1⟩
  | 37 => ⟨S_, .i32⟩
  | 38 => ⟨S6500000, .i32⟩
  | 39 => ⟨S6500000, .i32⟩
  | 40 => ⟨S6500000, .i32⟩
  | 41 => ⟨S6500000x1, .i32⟩
  | 42 => ⟨S6500000, .f32⟩
  | 43 => ⟨S6500000, .f32⟩
  | 44 => ⟨S100000x16, .f32⟩
  | 45 => ⟨S_, .i32⟩
  | 46 => ⟨S6500000, .i32⟩
  | 47 => ⟨S6500000, .i1⟩
  | 48 => ⟨S_, .i32⟩
  | 49 => ⟨S6500000, .i32⟩
  | 50 => ⟨S6500000, .i32⟩
  | 51 => ⟨S6500000, .i32⟩
  | 52 => ⟨S6500000x1, .i32⟩
  | 53 => ⟨S6500000x16, .f32⟩
  | 54 => ⟨S6500000x1, .f32⟩
  | 55 => ⟨S6500000x16, .f32⟩
  | 56 => ⟨S6500000x16, .f32⟩
  | 57 => ⟨S_, .f32⟩
  | 58 => ⟨S100000x16, .f32⟩
  | 59 => ⟨S6500000x1, .i32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000, .i32⟩
  | 68 => ⟨S1x6400000, .i32⟩
  | 69 => ⟨S6400000, .i32⟩
  | 70 => ⟨S6500000, .i32⟩
  | 71 => ⟨S1x6400000, .i32⟩
  | 72 => ⟨S6400000, .i32⟩
  | 73 => ⟨S6500000, .i32⟩
  | 74 => ⟨S_, .f32⟩
  | 75 => ⟨S6500000, .f32⟩
  | 76 => ⟨S_, .f32⟩
  | 77 => ⟨S100000, .f32⟩
  | 78 => ⟨S6500000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S6500000, .i32⟩
  | 86 => ⟨S6500000, .i1⟩
  | 87 => ⟨S_, .i32⟩
  | 88 => ⟨S6500000, .i32⟩
  | 89 => ⟨S6500000, .i32⟩
  | 90 => ⟨S6500000, .i32⟩
  | 91 => ⟨S6500000x1, .i32⟩
  | 92 => ⟨S6500000, .f32⟩
  | 93 => ⟨S_, .i32⟩
  | 94 => ⟨S6500000, .i32⟩
  | 95 => ⟨S6500000, .i1⟩
  | 96 => ⟨S_, .i32⟩
  | 97 => ⟨S6500000, .i32⟩
  | 98 => ⟨S6500000, .i32⟩
  | 99 => ⟨S6500000, .i32⟩
  | 100 => ⟨S6500000x1, .i32⟩
  | 101 => ⟨S6500000, .f32⟩
  | 102 => ⟨S6500000, .f32⟩
  | 103 => ⟨S100000x8, .f32⟩
  | 104 => ⟨S_, .i32⟩
  | 105 => ⟨S6500000, .i32⟩
  | 106 => ⟨S6500000, .i1⟩
  | 107 => ⟨S_, .i32⟩
  | 108 => ⟨S6500000, .i32⟩
  | 109 => ⟨S6500000, .i32⟩
  | 110 => ⟨S6500000, .i32⟩
  | 111 => ⟨S6500000x1, .i32⟩
  | 112 => ⟨S6500000x8, .f32⟩
  | 113 => ⟨S6500000x1, .f32⟩
  | 114 => ⟨S6500000x8, .f32⟩
  | 115 => ⟨S6500000x8, .f32⟩
  | 116 => ⟨S_, .f32⟩
  | 117 => ⟨S100000x8, .f32⟩
  | 118 => ⟨S6500000x1, .i32⟩
  | 119 => ⟨S100000x8, .f32⟩
  | 120 => ⟨S1x8, .f32⟩
  | 121 => ⟨S100000x8, .f32⟩
  | 122 => ⟨S100000x8, .f32⟩
  | 123 => ⟨S_, .f32⟩
  | 124 => ⟨S100000x8, .f32⟩
  | 125 => ⟨S100000x8, .f32⟩
  | 126 => ⟨S100000x4, .f32⟩
  | 127 => ⟨S1x4, .f32⟩
  | _ => ⟨S100000x32, .f32⟩

abbrev hbmTy0_1 (i : Nat) : BufTy := match i % 128 with
  | 0 => ⟨S100000x4, .f32⟩
  | 1 => ⟨S100000x4, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_13 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_c_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x32_S32x16_S100000x16_1_0_0_1_n_n_wf : DotDims.WF S100000x32 S32x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  dot_S100000x8_S8x4_S100000x4_1_0_0_1_n_n_wf : DotDims.WF S100000x8 S8x4 S100000x4 [1] [0] [0] [1] [] []

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf

class Facts : Prop extends Facts₀ where

variable [Facts]
-- ==== Proof.HostDefs.lean ====
/-
  The index arithmetic around the kernel's row gather, as functions of the source-index vector `src` (the edges'
  source row followed by 0 … N−1 for the self loops):
    `wrapK src`      an index below zero is moved up by N = 100000 (numpy's wrap-around),
    `inRangeK src`   per edge, whether the wrapped index lies in [0, N − 1],
  and `srcK e`, the source-index vector itself from the 2 × E edge array. The kernel's gather keeps a gathered row
  where `inRangeK` holds and fills it with a NaN pattern elsewhere; the reference gathers without the test.
-/
import proofs.«414693_j1348619730951_2_alg».proof.KernelIdeal

noncomputable section

namespace Cert.KernelIdeal.HostDefs

open Idealize.ShloMosaic Cert.KernelIdeal

variable [Cert.KernelIdeal.Facts]
open Cert.KernelIdeal.Facts₀ Cert.KernelIdeal.Facts

/-- The edges' source row, then the self loops 0 … N−1. -/
def srcK (e : IVec S2x6400000 32) : IVec S6500000 32 :=
  concatenate S6500000 0 [⟨S6400000, shapeCast S6400000 (extractStridedSlice S1x6400000 ![0, 0] e slices_S2x6400000_S1x6400000_0_0) shapeCasts_S1x6400000_S6400000⟩, ⟨S100000, iotaInDim S100000 32 0⟩] concatenates_S6400000_S100000_S6500000_d0

/-- Negative indices wrapped: `src < 0 ? src + N : src`. -/
def wrapK (src : IVec S6500000 32) : IVec S6500000 32 :=
  select (cmpi .slt src (broadcastInDim S6500000 ![] bcast_S_S6500000 (constantI S_ 32 0#32)))
    (addi src (broadcastInDim S6500000 ![] bcast_S_S6500000 (constantI S_ 32 100000#32))) src

/-- The wrapped indices as a one-column matrix (the gather's start indices). -/
def startK (src : IVec S6500000 32) : IVec S6500000x1 32 :=
  broadcastInDim S6500000x1 ![0] bcast_S6500000_S6500000x1_0 (wrapK src)

/-- Per edge: is the wrapped index in [0, N − 1]? -/
def inRangeK (src : IVec S6500000 32) : IVec S6500000 1 :=
  Host.reduce IntOp.andi
    (andi (cmpi .sge (startK src) (broadcastInDim S6500000x1 ![] bcast_S_S6500000x1 (constantI S_ 32 0#32)))
      (cmpi .sle (startK src) (broadcastInDim S6500000x1 ![0, 1] bcast_S1x1_S6500000x1_0_1 (broadcastInDim S1x1 ![1] bcast_S1_S1x1_1 (constantI S1 32 99999#32)))))
    (constantI S_ 1 1#1) reducesTo_S6500000x1_S6500000_d1 h_S_

end Cert.KernelIdeal.HostDefs

end
-- ==== Proof.Mask.lean ====
/-
  Under the precondition every entry of the edge array is a node number, 0 ≤ e < N = 100000. Then every source
  index (an edge's source or a self loop's node) is in range, wrapping negative indices changes nothing, and the
  kernel's in-range test around its row gather holds at every edge.
-/
import proofs.«414693_j1348619730951_2_alg».proof.Proof.HostDefs
import proofs.«414693_j1348619730951_2_alg».proof.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

open Idealize.ShloMosaic

namespace Cert.KernelIdeal.Mask

open Cert.KernelIdeal Cert.KernelIdeal.HostDefs

private instance : Subsingleton Cert.Pre_finite_inputs.S_.Idx := ⟨fun a b => funext fun d => d.elim0⟩

/-- A scalar constant broadcast to any shape reads the constant at every index. -/
private theorem bcast_const {t : Shape} {w : Nat} (hb : (⟨0, ![]⟩ : Shape).BroadcastsInDim t ![]) (c : BitVec w) (j : t.Idx) :
    broadcastInDim t ![] hb (constantI (⟨0, ![]⟩ : Shape) w c) j = c := by
  unfold broadcastInDim; rfl

/-- A 32-bit word that is signed-nonnegative and signed-below a small bound is below it as a natural number. -/
private theorem toNat_lt_of_signed (x : BitVec 32) (n : Nat) (hn : n < 2 ^ 31)
    (h0 : IntOp.cmpi .sge x 0#32 = 1#1) (h1 : IntOp.cmpi .slt x (BitVec.ofNat 32 n) = 1#1) : x.toNat < n := by
  rw [IntOp.cmpi_sge, BitVec.toInt_zero] at h0
  rw [IntOp.cmpi_slt, StableHlo.Predicate.toInt_ofNat_small n hn] at h1
  have hx := BitVec.toInt_eq_toNat_cond x
  have := x.isLt
  split at hx <;> omega

/-- The printed precondition gives the range of every entry of the edge array (its last conjunct). -/
theorem edges_of_pre [Cert.Pre_finite_inputs.Facts]
    (a0 : FVec Ideal Cert.Pre_finite_inputs.S100000x32 .f32) (e : IVec Cert.Pre_finite_inputs.S2x6400000 32)
    (a2 : FVec Ideal Cert.Pre_finite_inputs.S32x16 .f32) (a3 : FVec Ideal Cert.Pre_finite_inputs.S16 .f32)
    (a4 : FVec Ideal Cert.Pre_finite_inputs.S16x8 .f32) (a5 : FVec Ideal Cert.Pre_finite_inputs.S8 .f32)
    (a6 : FVec Ideal Cert.Pre_finite_inputs.S8x4 .f32) (a7 : FVec Ideal Cert.Pre_finite_inputs.S4 .f32)
    (h : Cert.Pre_finite_inputs.fn (F := Ideal) a0 e a2 a3 a4 a5 a6 a7 = fun _ => 1#1) :
    ∀ j : Cert.Pre_finite_inputs.S2x6400000.Idx, (e j).toNat < 100000 := by
  intro j
  have h0 := congrFun h (fun d => d.elim0)
  dsimp only [Cert.Pre_finite_inputs.fn, Cert.Pre_finite_inputs.fn_part1, Cert.Pre_finite_inputs.fn_part2] at h0
  have hr := (IntOp.andi_eq_one.1 h0).2
  have hj := Host.reduce_andi_all _ _ _ _ _ hr j
  obtain ⟨hge, hlt⟩ := IntOp.andi_eq_one.1 hj
  change IntOp.cmpi .sge (e j) (broadcastInDim Cert.Pre_finite_inputs.S2x6400000 ![] _ (constantI Cert.Pre_finite_inputs.S_ 32 0#32) j) = 1#1 at hge
  change IntOp.cmpi .slt (e j) (broadcastInDim Cert.Pre_finite_inputs.S2x6400000 ![] _ (constantI Cert.Pre_finite_inputs.S_ 32 100000#32) j) = 1#1 at hlt
  rw [bcast_const] at hge hlt
  exact toNat_lt_of_signed (e j) 100000 (by norm_num) hge hlt

variable [Cert.KernelIdeal.Facts]

/-- Every source index is a node number: an edge's source by hypothesis, a self loop's by construction. -/
theorem src_range (e : IVec S2x6400000 32) (h : ∀ j, (e j).toNat < 100000) :
    ∀ j, (srcK e j).toNat < 100000 := by
  intro j
  unfold srcK
  by_cases hj : (j 0).val < 6400000
  · -- an edge's source: row 0 of the edge array at column j
    let i : S6400000.Idx := fun a => match a with
      | ⟨0, _⟩ => ⟨(j 0).val, hj⟩
    let k1 : S1x6400000.Idx := fun a => match a with
      | ⟨0, _⟩ => ⟨0, Nat.one_pos⟩
      | ⟨1, _⟩ => ⟨(j 0).val, hj⟩
    let k2 : S2x6400000.Idx := fun a => match a with
      | ⟨0, _⟩ => ⟨0, Nat.two_pos⟩
      | ⟨1, _⟩ => ⟨(j 0).val, hj⟩
    have hc := concatenate_pair_apply_left (0 : Fin S6500000.rank)
      (shapeCast S6400000 (extractStridedSlice S1x6400000 ![0, 0] e Facts₀.slices_S2x6400000_S1x6400000_0_0) Facts₀.shapeCasts_S1x6400000_S6400000)
      (iotaInDim S100000 32 0) Facts₀.concatenates_S6400000_S100000_S6500000_d0 j rfl i
      (fun b => match b with | ⟨0, _⟩ => rfl)
    have hs := shapeCast_apply (extractStridedSlice S1x6400000 ![0, 0] e Facts₀.slices_S2x6400000_S1x6400000_0_0)
      Facts₀.shapeCasts_S1x6400000_S6400000 i k1
      (by rewrite [Shape.rowMajor_val_two, Shape.rowMajor_val_one]; show 0 * 6400000 + (j 0).val = (j 0).val; omega)
    have hx := extractStridedSlice_apply ![0, 0] e Facts₀.slices_S2x6400000_S1x6400000_0_0 k1 k2 (fun a => match a with
      | ⟨0, _⟩ => by show 0 = 0 + 0; omega
      | ⟨1, _⟩ => by show (j 0).val = 0 + (j 0).val; omega)
    rw [hc, hs, hx]
    exact h k2
  · -- a self loop: the node number itself
    have hlt : (j 0).val < 6500000 := (j 0).isLt
    let i : S100000.Idx := fun a => match a with
      | ⟨0, _⟩ => ⟨(j 0).val - 6400000, by show (j 0).val - 6400000 < 100000; omega⟩
    have hc := concatenate_pair_apply_right (0 : Fin S6500000.rank)
      (shapeCast S6400000 (extractStridedSlice S1x6400000 ![0, 0] e Facts₀.slices_S2x6400000_S1x6400000_0_0) Facts₀.shapeCasts_S1x6400000_S6400000)
      (iotaInDim S100000 32 0) Facts₀.concatenates_S6400000_S100000_S6500000_d0 j rfl rfl i
      (fun b hb => absurd (Subsingleton.elim _ _) hb)
      (by show (j 0).val - 6400000 + 6400000 = (j 0).val; omega)
    rw [hc]
    show (BitVec.ofNat 32 ((j 0).val - 6400000)).toNat < 100000
    rw [BitVec.toNat_ofNat, Nat.mod_eq_of_lt] <;> omega

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- For a node number x (0 ≤ x < N as a natural number) the wrap leaves x alone and both range tests hold. -/
private theorem inRange_word (x : BitVec 32) (hx : x.toNat < 100000) :
    IntOp.andi (IntOp.cmpi .sge (Scalar.select (IntOp.cmpi .slt x 0#32) (IntOp.addi x 100000#32) x) 0#32)
      (IntOp.cmpi .sle (Scalar.select (IntOp.cmpi .slt x 0#32) (IntOp.addi x 100000#32) x) 99999#32) = 1#1 := by
  have hneg : IntOp.cmpi .slt x 0#32 ≠ 1#1 := fun hc => by
    have := (StableHlo.Predicate.slt_iff_toNat (a := x) (b := 0#32) (by omega) (by decide)).1 hc
    simp at this
  have hsel : Scalar.select (IntOp.cmpi .slt x 0#32) (IntOp.addi x 100000#32) x = x := if_neg hneg
  rw [hsel, IntOp.andi_eq_one]
  exact ⟨(StableHlo.Predicate.sge_iff_toNat (by omega) (by decide)).2 (Nat.zero_le _),
    (StableHlo.Predicate.sle_iff_toNat (by omega) (by decide)).2 (by show x.toNat ≤ 99999; omega)⟩

/-- With every source index a node number the in-range test holds at every edge. -/
theorem inRange_ones (src : IVec S6500000 32) (h : ∀ j, (src j).toNat < 100000) :
    inRangeK src = fun _ => 1#1 := by
  funext j
  unfold inRangeK
  rw [Host.reduce_eq_foldl]
  refine foldl_andi_ones _ (fun i => ?_) _
  -- row i of the one-column matrix holds the wrapped source index of edge i
  let k : S6500000.Idx := fun a => match a with
    | ⟨0, _⟩ => ⟨(i 0).val, by have hi : (i 0).val < 6500000 := (i 0).isLt; exact hi⟩
  have hs : startK src i = wrapK src k := by
    unfold startK
    generalize wrapK src = y
    exact broadcastInDim_apply _ Facts₀.bcast_S6500000_S6500000x1_0 y i k (fun a => match a with
      | ⟨0, _⟩ => by show (i 0).val = if (6500000 : Nat) = 1 then 0 else (i 0).val; rw [if_neg (by decide)])
  show IntOp.andi (IntOp.cmpi .sge (startK src i) _) (IntOp.cmpi .sle (startK src i) _) = 1#1
  rw [hs]
  exact inRange_word (src k) (h k)

end Cert.KernelIdeal.Mask

end
-- ==== Proof.HostGlue.lean ====
/-
  The host side of one graph-convolution layer, as the kernel program spells it, as functions of plain arrays:
    `dstK e`            the edges' destination row followed by the self loops 0 … N−1,
    `degK dst`          the in-degree (a scatter-add of ones),  `dinvK dst` = rsqrt (max (deg, 1e-12)),
    `normK src dst`     dinv[src] · dinv[dst] per edge,
    `takeK16 h src`     the rows of `h` at the (wrapped) source indices, NaN-filled where the index is out of range,
    `aggK16 h src dst nrm`   the scatter-add over destinations of those rows scaled by `nrm`
  and the same two for feature width 8.
-/
import proofs.«414693_j1348619730951_2_alg».proof.Proof.HostDefs

noncomputable section

namespace Cert.KernelIdeal.HostDefs

open Idealize.ShloMosaic Cert.KernelIdeal

variable [Cert.KernelIdeal.Facts]
open Cert.KernelIdeal.Facts₀ Cert.KernelIdeal.Facts

variable {F : FTy → Type} [FloatOps F]

/-- The edges' destination row, then the self loops 0 … N−1. -/
def dstK (e : IVec S2x6400000 32) : IVec S6500000 32 :=
  concatenate S6500000 0 [⟨S6400000, shapeCast S6400000 (extractStridedSlice S1x6400000 ![1, 0] e slices_S2x6400000_S1x6400000_1_0) shapeCasts_S1x6400000_S6400000⟩, ⟨S100000, iotaInDim S100000 32 0⟩] concatenates_S6400000_S100000_S6500000_d0

/-- In-degree of every node, self loop included: ones scattered onto the destinations. -/
def degK (dst : IVec S6500000 32) : FVec F S100000 .f32 :=
  Host.scatterAdd scatter_S100000_S6500000x1_S6500000_n_0_0_1 (broadcastInDim S100000 ![] bcast_S_S100000 (constant S_ .f32 0x00000000#32))
    (broadcastInDim S6500000x1 ![0] bcast_S6500000_S6500000x1_0 dst) (broadcastInDim S6500000 ![] bcast_S_S6500000 (constant S_ .f32 0x3F800000#32))

/-- deg^(-1/2), the degree floored at 1e-12. -/
def dinvK (dst : IVec S6500000 32) : FVec F S100000 .f32 :=
  Host.rsqrt (maximumf (degK (F := F) dst) (broadcastInDim S100000 ![] bcast_S_S100000 (constant S_ .f32 0x2B8CBCCC#32)))

/-- The symmetric normalization of every edge: dinv[src] · dinv[dst]. -/
def normK (src dst : IVec S6500000 32) : FVec F S6500000 .f32 :=
  mulf (Host.gather gather_S100000_S6500000x1_S6500000_n_0_n_n_0_1_1 (dinvK (F := F) dst) (startK src))
    (Host.gather gather_S100000_S6500000x1_S6500000_n_0_n_n_0_1_1 (dinvK (F := F) dst) (startK dst))

/-- Rows of `h` [N, 16] at the source indices; a NaN pattern where the wrapped index is out of range. -/
def takeK16 (h : FVec F S100000x16 .f32) (src : IVec S6500000 32) : FVec F S6500000x16 .f32 :=
  select (broadcastInDim S6500000x16 ![0] bcast_S6500000_S6500000x16_0 (inRangeK src))
    (Host.gather gather_S100000x16_S6500000x1_S6500000x16_1_0_n_n_0_1_116 h (startK src))
    (broadcastInDim S6500000x16 ![] bcast_S_S6500000x16 (constant S_ .f32 0x7FC00000#32))

/-- One layer's neighbourhood sum at width 16: gathered rows scaled by the edge's normalization, added up per destination. -/
def aggK16 (h : FVec F S100000x16 .f32) (src dst : IVec S6500000 32) (nrm : FVec F S6500000 .f32) : FVec F S100000x16 .f32 :=
  Host.scatterAdd scatter_S100000x16_S6500000x1_S6500000x16_1_0_0_1 (broadcastInDim S100000x16 ![] bcast_S_S100000x16 (constant S_ .f32 0x00000000#32))
    (broadcastInDim S6500000x1 ![0] bcast_S6500000_S6500000x1_0 dst)
    (mulf (takeK16 h src) (broadcastInDim S6500000x16 ![0, 1] bcast_S6500000x1_S6500000x16_0_1 (broadcastInDim S6500000x1 ![0] bcast_S6500000_S6500000x1_0 nrm)))

/-- Rows of `h` [N, 8] at the source indices; a NaN pattern where the wrapped index is out of range. -/
def takeK8 (h : FVec F S100000x8 .f32) (src : IVec S6500000 32) : FVec F S6500000x8 .f32 :=
  select (broadcastInDim S6500000x8 ![0] bcast_S6500000_S6500000x8_0 (inRangeK src))
    (Host.gather gather_S100000x8_S6500000x1_S6500000x8_1_0_n_n_0_1_18 h (startK src))
    (broadcastInDim S6500000x8 ![] bcast_S_S6500000x8 (constant S_ .f32 0x7FC00000#32))

/-- One layer's neighbourhood sum at width 8. -/
def aggK8 (h : FVec F S100000x8 .f32) (src dst : IVec S6500000 32) (nrm : FVec F S6500000 .f32) : FVec F S100000x8 .f32 :=
  Host.scatterAdd scatter_S100000x8_S6500000x1_S6500000x8_1_0_0_1 (broadcastInDim S100000x8 ![] bcast_S_S100000x8 (constant S_ .f32 0x00000000#32))
    (broadcastInDim S6500000x1 ![0] bcast_S6500000_S6500000x1_0 dst)
    (mulf (takeK8 h src) (broadcastInDim S6500000x8 ![0, 1] bcast_S6500000x1_S6500000x8_0_1 (broadcastInDim S6500000x1 ![0] bcast_S6500000_S6500000x1_0 nrm)))

end Cert.KernelIdeal.HostDefs

end
-- ==== Proof.Bridge.lean ====
/-
  The host side of the two programs is one computation. Over plain arrays: the kernel's source / destination index
  vectors, edge normalization and (given the edge range) its neighbourhood sums are the reference's. The only
  difference in text — the kernel's in-range test with its NaN fill around the row gather — disappears once every
  source index is a node number: the test holds at every edge, so the select keeps every gathered row.
-/
import proofs.«414693_j1348619730951_2_alg».proof.Proof.HostGlue
import proofs.«414693_j1348619730951_2_alg».proof.Proof.Mask
import proofs.«414693_j1348619730951_2_alg».proof.Proof.Gen.ReferenceIdeal.Read
import proofs.«414693_j1348619730951_2_alg».proof.Proof.Gen.KernelIdeal
import Idealize.ShloMosaic.Lib.ValueIdx

noncomputable section

open Idealize.ShloMosaic

namespace Cert.KernelIdeal.Bridge

open Cert.KernelIdeal Cert.KernelIdeal.Gen Cert.KernelIdeal.HostDefs
open Cert.ReferenceIdeal.Read

variable (e : IVec S2x6400000 32)

/-- Source indices: the same concatenation on both sides (the reference builds it once per layer). -/
theorem src_eq : srcK e = val_main_v3 (F := Ideal) e := rfl
theorem src_eq' : srcK e = val_main_v50 (F := Ideal) e := rfl
/-- Destination indices likewise. -/
theorem dst_eq : dstK e = val_main_v6 (F := Ideal) e := rfl
theorem dst_eq' : dstK e = val_main_v53 (F := Ideal) e := rfl
/-- The edge normalization dinv[src] · dinv[dst]: the same operations on both sides, for each layer. -/
theorem norm_eq : normK (F := Ideal) (srcK e) (dstK e) = val_main_v28 (F := Ideal) e := rfl
theorem norm_eq' : normK (F := Ideal) (srcK e) (dstK e) = val_main_v75 (F := Ideal) e := rfl

/-- A select whose condition holds everywhere keeps its first operand (width 16). -/
theorem select_all16 (A B : FVec Ideal S6500000x16 .f32) :
    select (broadcastInDim S6500000x16 ![0] Gen.bcast_S6500000_S6500000x16_0 ((fun _ => 1#1) : IVec S6500000 1)) A B = A := by
  funext i
  rw [ValueIdx.select_apply]
  rfl

/-- The same at width 8. -/
theorem select_all8 (A B : FVec Ideal S6500000x8 .f32) :
    select (broadcastInDim S6500000x8 ![0] Gen.bcast_S6500000_S6500000x8_0 ((fun _ => 1#1) : IVec S6500000 1)) A B = A := by
  funext i
  rw [ValueIdx.select_apply]
  rfl

variable (hedge : ∀ j, (e j).toNat < 100000)
include hedge

/-- The first layer's neighbourhood sum of `h₁ = x · W₁`: with every source index a node number, the kernel's
    NaN-guarded gather is the plain gather, and the two scatter-adds are the same. -/
theorem agg16_eq (x0 : FVec Ideal S100000x32 .f32) (x2 : FVec Ideal S32x16 .f32) :
    aggK16 (F := Ideal) (val_main_v29 (F := Ideal) x0 x2) (srcK e) (dstK e) (normK (F := Ideal) (srcK e) (dstK e))
      = val_main_v42 (F := Ideal) x0 e x2 := by
  unfold aggK16 takeK16
  rw [Mask.inRange_ones (srcK e) (Mask.src_range e hedge), select_all16]
  rfl

/-- The second layer's neighbourhood sum of `h₂`. -/
theorem agg8_eq (x0 : FVec Ideal S100000x32 .f32) (x2 : FVec Ideal S32x16 .f32) (x3 : FVec Ideal S16 .f32) (x4 : FVec Ideal S16x8 .f32) :
    aggK8 (F := Ideal) (val_main_v76 (F := Ideal) x0 e x2 x3 x4) (srcK e) (dstK e) (normK (F := Ideal) (srcK e) (dstK e))
      = val_main_v89 (F := Ideal) x0 e x2 x3 x4 := by
  unfold aggK8 takeK8
  rw [Mask.inRange_ones (srcK e) (Mask.src_range e hedge), select_all8]
  rfl

end Cert.KernelIdeal.Bridge

end
-- ==== Proof.Spec.lean ====
/-
  The three dense stages of the two-layer graph convolution, each as ONE function of whole arrays, index by index,
  over the extended reals:
    stage 0   h₁[i, j]  = ∑ₖ x[i, k] · W₁[k, j]
    stage 1   h₂[i, j]  = ∑ₖ max (a₁[i, k] + b₁[0, k], 0) · W₂[k, j]
    stage 2   out[i, j] = (∑ₖ max (a₂[i, k] + b₂[0, k], 0) · W_fc[k, j]) + b_fc[0, j]
  (a₁, a₂ are the normalized neighbourhood sums the host computes between the stages; the biases enter as one-row
  matrices). Both programs compute exactly these: the kernel row block by row block on the matrix unit, the reference
  by one contraction over the whole array.
-/
import proofs.«414693_j1348619730951_2_alg».proof.KernelIdeal
import Idealize.ShloMosaic.PureOps.Ideal

noncomputable section

namespace Cert.Gcn

open Idealize.ShloMosaic Cert.KernelIdeal

/-- The contents of a float array of shape `S` at the ideal instance. -/
abbrev C (S : Shape) := (⟨S, .f32⟩ : BufTy).Contents (Elt Ideal)

/-! ## Indices: entry (row of `i`, `k`) of a left factor, entry (`k`, column of `i`) of a right factor, entry (0, `k`) of a one-row bias -/

abbrev l0 (i : S100000x16.Idx) (k : Fin 32) : S100000x32.Idx := fun a => match a with
  | ⟨0, _⟩ => ⟨(i 0).val, (i 0).isLt⟩
  | ⟨1, _⟩ => ⟨k.val, k.isLt⟩
abbrev r0 (i : S100000x16.Idx) (k : Fin 32) : S32x16.Idx := fun a => match a with
  | ⟨0, _⟩ => ⟨k.val, k.isLt⟩
  | ⟨1, _⟩ => ⟨(i 1).val, (i 1).isLt⟩
abbrev l1 (i : S100000x8.Idx) (k : Fin 16) : S100000x16.Idx := fun a => match a with
  | ⟨0, _⟩ => ⟨(i 0).val, (i 0).isLt⟩
  | ⟨1, _⟩ => ⟨k.val, k.isLt⟩
abbrev r1 (i : S100000x8.Idx) (k : Fin 16) : S16x8.Idx := fun a => match a with
  | ⟨0, _⟩ => ⟨k.val, k.isLt⟩
  | ⟨1, _⟩ => ⟨(i 1).val, (i 1).isLt⟩
abbrev c1 (k : Fin 16) : S1x16.Idx := fun a => match a with
  | ⟨0, _⟩ => ⟨0, Nat.one_pos⟩
  | ⟨1, _⟩ => ⟨k.val, k.isLt⟩
abbrev l2 (i : S100000x4.Idx) (k : Fin 8) : S100000x8.Idx := fun a => match a with
  | ⟨0, _⟩ => ⟨(i 0).val, (i 0).isLt⟩
  | ⟨1, _⟩ => ⟨k.val, k.isLt⟩
abbrev r2 (i : S100000x4.Idx) (k : Fin 8) : S8x4.Idx := fun a => match a with
  | ⟨0, _⟩ => ⟨k.val, k.isLt⟩
  | ⟨1, _⟩ => ⟨(i 1).val, (i 1).isLt⟩
abbrev c2 (k : Fin 8) : S1x8.Idx := fun a => match a with
  | ⟨0, _⟩ => ⟨0, Nat.one_pos⟩
  | ⟨1, _⟩ => ⟨k.val, k.isLt⟩
abbrev d2 (i : S100000x4.Idx) : S1x4.Idx := fun a => match a with
  | ⟨0, _⟩ => ⟨0, Nat.one_pos⟩
  | ⟨1, _⟩ => ⟨(i 1).val, (i 1).isLt⟩

/-- Entry `k` of a bias vector (the entry a one-row bias matrix holds at (0, `k`)). -/
abbrev e1 (k : Fin 16) : S16.Idx := fun a => match a with
  | ⟨0, _⟩ => ⟨k.val, k.isLt⟩
abbrev e2 (k : Fin 8) : S8.Idx := fun a => match a with
  | ⟨0, _⟩ => ⟨k.val, k.isLt⟩
abbrev f2 (i : S100000x4.Idx) : S4.Idx := fun a => match a with
  | ⟨0, _⟩ => ⟨(i 1).val, (i 1).isLt⟩

/-! ## The stages -/

/-- Stage 0: the plain product `x · W₁`. -/
def G0 (x : C S100000x32) (w : C S32x16) : C S100000x16 := fun i =>
  ∑ k : Fin 32, x (l0 i k) * w (r0 i k)

/-- Stage 1: `relu (a + b) · W₂`, the bias a one-row matrix added to every row. -/
def G1 (a : C S100000x16) (b : C S1x16) (w : C S16x8) : C S100000x8 := fun i =>
  ∑ k : Fin 16, FloatOps.maximumf (F := Ideal) (FloatOps.addf (F := Ideal) (a (l1 i k)) (b (c1 k))) (FloatOps.ofBits (F := Ideal) .f32 0x00000000#32) * w (r1 i k)

/-- Stage 2: `relu (a + b) · W_fc + b_fc`. -/
def G2 (a : C S100000x8) (b : C S1x8) (w : C S8x4) (bf : C S1x4) : C S100000x4 := fun i =>
  FloatOps.addf (F := Ideal) (φ := .f32) (∑ k : Fin 8, FloatOps.maximumf (F := Ideal) (FloatOps.addf (F := Ideal) (a (l2 i k)) (b (c2 k))) (FloatOps.ofBits (F := Ideal) .f32 0x00000000#32) * w (r2 i k)) (bf (d2 i))

end Cert.Gcn

end
-- ==== Proof.Region0.lean ====
/-
  Region 0 of the kernel program, read as a value: whatever the arrays hold when the region is entered (`V`), the
  output array after the region's ten grid points is stage 0 of the entry arrays. Point `t` stages rows
  10000·t … 10000·t + 9999 of the left factor and the whole right factor, the body stores their product on the
  matrix unit — at an entry the sum over the 32 contracted entries, the narrowing to bf16 being the identity on the
  extended reals and the accumulator zero —, and the point writes the product back as row block `t` of the result.
  The ten row blocks cover the result, so the result is `x · W₁` entry by entry.
-/
import proofs.«414693_j1348619730951_2_alg».proof.Proof.Gen.KernelIdeal.Frame
import proofs.«414693_j1348619730951_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Gcn

/-! ## One block product at an entry -/

/-- Entry (row of `j`, `k`) of the staged left block and entry (`k`, column of `j`) of the staged right factor. -/
abbrev lb (j : S10000x16.Idx) (k : Fin 32) : S10000x32.Idx := fun a => match a with
  | ⟨0, _⟩ => ⟨(j 0).val, (j 0).isLt⟩
  | ⟨1, _⟩ => ⟨k.val, k.isLt⟩
abbrev rb (j : S10000x16.Idx) (k : Fin 32) : S32x16.Idx := fun a => match a with
  | ⟨0, _⟩ => ⟨k.val, k.isLt⟩
  | ⟨1, _⟩ => ⟨(j 1).val, (j 1).isLt⟩

/-- The block product's operand indices, axis by axis: the left operand is read at (output row, contracted index),
    the right at (contracted index, output column). -/
theorem lhs_0 (i : S10000x16.Idx) (q : dot_S10000x32_S32x16_S10000x16_1_0_0_1_n_n.contr.Idx) :
    (dot_S10000x32_S32x16_S10000x16_1_0_0_1_n_n.lhsIdx i q 0).val = (i 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_1 (i : S10000x16.Idx) (q : dot_S10000x32_S32x16_S10000x16_1_0_0_1_n_n.contr.Idx) :
    (dot_S10000x32_S32x16_S10000x16_1_0_0_1_n_n.lhsIdx i q 1).val = (q ⟨0, by decide⟩).val :=
  dot_S10000x32_S32x16_S10000x16_1_0_0_1_n_n.lhsIdx_val_of_single rfl i q
theorem rhs_0 (i : S10000x16.Idx) (q : dot_S10000x32_S32x16_S10000x16_1_0_0_1_n_n.contr.Idx) :
    (dot_S10000x32_S32x16_S10000x16_1_0_0_1_n_n.rhsIdx i q 0).val = (q ⟨0, by decide⟩).val :=
  dot_S10000x32_S32x16_S10000x16_1_0_0_1_n_n.rhsIdx_val_of_single rfl i q
theorem rhs_1 (i : S10000x16.Idx) (q : dot_S10000x32_S32x16_S10000x16_1_0_0_1_n_n.contr.Idx) :
    (dot_S10000x32_S32x16_S10000x16_1_0_0_1_n_n.rhsIdx i q 1).val = (i 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The body's one stored value at an entry of the block: the sum over the contracted axis of the products. -/
theorem pay_apply (x0 : Vec Ideal S10000x32 .f32) (x1 : Vec Ideal S32x16 .f32) (j : S10000x16.Idx) :
    k0_pay1 (F := Ideal) x0 x1 j = ∑ k : Fin 32, x0 (lb j k) * x1 (rb j k) := by
  unfold k0_pay1
  show FloatOps.matmul dot_S10000x32_S32x16_S10000x16_1_0_0_1_n_n none _ _ (constant S10000x16 .f32 0x00000000#32) j = _
  rw [Ideal.matmul_constant_zero_apply, ← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx j ((ValueIdx.contrEquiv1 dot_S10000x32_S32x16_S10000x16_1_0_0_1_n_n 32 rfl rfl).symm k) = lb j k := funext fun a => Fin.ext (by
    match a with
    | ⟨0, _⟩ => exact lhs_0 _ _
    | ⟨1, _⟩ => exact (lhs_1 _ _).trans hk)
  have er : dot_S10000x32_S32x16_S10000x16_1_0_0_1_n_n.rhsIdx j ((ValueIdx.contrEquiv1 dot_S10000x32_S32x16_S10000x16_1_0_0_1_n_n 32 rfl rfl).symm k) = rb j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: at point `t` the left factor's and the result's row block is `t`, every
    other block index is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
theorem block_onto : ∀ q : Fin 10, ∃ t : Fin cfg0.N, win0_2.index t = ![q.val, 0] :=
  (by decide +kernel : ∀ q : Fin 10, ∃ t : Fin grid0.N, win0_2.index t = ![q.val, 0])

/-- What point `t` writes back is block `t` of stage 0 of the entry arrays. -/
theorem flushed_eq (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x32) zero_offsets, View.ld_unit_zero (S := S32x16) zero_offsets]
  obtain ⟨e0, e1, e2, e3, e4, e5⟩ := block_indices t
  funext j
  show k0_pay1 (F := Ideal) (iblk0 V c 0 t) (iblk0 V c 1 t) j = G0 (V c main_arg0) (V c main_arg2) (((cfg0.win 2).blk t).view.emb j)
  refine (pay_apply (iblk0 V c 0 t) (iblk0 V c 1 t) j).trans ?_
  unfold G0
  refine Finset.sum_congr rfl fun k _ => ?_
  have h0 : iblk0 V c 0 t (lb j k) = V c main_arg0 (l0 (((cfg0.win 2).blk t).view.emb j) k) := by
    show V c main_arg0 (((cfg0.win 0).blk t).view.emb (lb j k)) = _
    congr 1; funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 32 + 1 * k.val = k.val; omega
  have h1 : iblk0 V c 1 t (rb j k) = V c main_arg2 (r0 (((cfg0.win 2).blk t).view.emb j) k) := by
    show V c main_arg2 (((cfg0.win 1).blk t).view.emb (rb j k)) = _
    congr 1; funext a; apply Fin.ext
    match a with
    | ⟨0, _⟩ => show win0_1.index t (0 : Fin 2) * 32 + 1 * k.val = k.val; omega
    | ⟨1, _⟩ => show win0_1.index t (1 : Fin 2) * 16 + 1 * (j 1).val = win0_2.index t (1 : Fin 2) * 16 + 1 * (j 1).val; omega
  rw [h0, h1]

/-- An index of the result lies in point `t`'s block iff each coordinate lies in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v29).slice (win0_2.rect t)).set ↔ _
  rw [View.set_slice_whole, Rect.mem_set_unit]
  exact Iff.rfl

/-- The ten row blocks cover the result: row `r` is in the block of point `r / 10000`. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array of region 0 after its last grid point is stage 0 of the arrays the region was entered with. -/
theorem value (c : Dev nD) :
    (dat0 (F := Ideal) V c).arrAt 2 cfg0.N = Cert.Gcn.G0 (V c main_arg0) (V c main_arg2) :=
  (dat0 (F := Ideal) V c).arrAt_eq_of_cover 2 _ (fun t _ => flushed_eq V c t) (fun i => covered i)

end Cert.KernelIdeal.Region0

end
-- ==== Proof.Region1.lean ====
/-
  Region 1 of the kernel program, read as a value: whatever the arrays hold when the region is entered (`V`), the
  output array after the region's ten grid points is stage 1 of the entry arrays — row block `t` is written by point `t`
  from row block `t` of the left factor and the whole right factor (and biases), and the ten row blocks cover the array.
-/
import proofs.«414693_j1348619730951_2_alg».proof.Proof.Gen.KernelIdeal.Frame
import proofs.«414693_j1348619730951_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-! ## The product inside one row block -/

/-- Entry (row of `j`, `k`) of a row block of the left factor. -/
abbrev lb (j : S10000x8.Idx) (k : Fin 16) : S10000x16.Idx := fun a => match a with
  | ⟨0, _⟩ => ⟨(j 0).val, (j 0).isLt⟩
  | ⟨1, _⟩ => ⟨k.val, k.isLt⟩
/-- Entry (`k`, column of `j`) of the right factor. -/
abbrev rb (j : S10000x8.Idx) (k : Fin 16) : S16x8.Idx := fun a => match a with
  | ⟨0, _⟩ => ⟨k.val, k.isLt⟩
  | ⟨1, _⟩ => ⟨(j 1).val, (j 1).isLt⟩

theorem lhs_dot_0 (j : S10000x8.Idx) (q : dot_S10000x16_S16x8_S10000x8_1_0_0_1_n_n.contr.Idx) :
    (dot_S10000x16_S16x8_S10000x8_1_0_0_1_n_n.lhsIdx j q 0).val = (j 0).val := by
  unfold DotDims.lhsIdx
  rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
  rfl
theorem lhs_dot_1 (j : S10000x8.Idx) (q : dot_S10000x16_S16x8_S10000x8_1_0_0_1_n_n.contr.Idx) :
    (dot_S10000x16_S16x8_S10000x8_1_0_0_1_n_n.lhsIdx j q 1).val = (q ⟨0, by decide⟩).val :=
  dot_S10000x16_S16x8_S10000x8_1_0_0_1_n_n.lhsIdx_val_of_single rfl j q
theorem rhs_dot_0 (j : S10000x8.Idx) (q : dot_S10000x16_S16x8_S10000x8_1_0_0_1_n_n.contr.Idx) :
    (dot_S10000x16_S16x8_S10000x8_1_0_0_1_n_n.rhsIdx j q 0).val = (q ⟨0, by decide⟩).val :=
  dot_S10000x16_S16x8_S10000x8_1_0_0_1_n_n.rhsIdx_val_of_single rfl j q
theorem rhs_dot_1 (j : S10000x8.Idx) (q : dot_S10000x16_S16x8_S10000x8_1_0_0_1_n_n.contr.Idx) :
    (dot_S10000x16_S16x8_S10000x8_1_0_0_1_n_n.rhsIdx j q 1).val = (j 1).val := by
  unfold DotDims.rhsIdx
  rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
  rfl

/-- The bias row broadcast over the block, read at an entry: the bias at that entry's column. -/
theorem bias_apply (x1 : Vec Ideal S1x16 .f32) (y : S10000x16.Idx) (k : Fin 16) (hy : (y 1).val = k.val) :
    broadcastTo S10000x16 (shapeCast S1x16 x1 shapeCasts_S1x16_S1x16) broadcasts_S1x16_S10000x16 y = x1 (Cert.Gcn.c1 k) := by
  rw [shapeCast_self]
  exact broadcastTo_apply x1 broadcasts_S1x16_S10000x16 y (Cert.Gcn.c1 k) (fun a => match a with
    | ⟨0, _⟩ => by show (0 : Nat) = if (1 : Nat) = 1 then 0 else _; rw [if_pos rfl]
    | ⟨1, _⟩ => by show k.val = if (16 : Nat) = 1 then 0 else (y 1).val; rw [if_neg (by decide), hy])

/-- The body's payload at an entry of the output block: the sum over the sixteen columns of the rectified biased
    left entry times the right entry. -/
theorem pay_apply (x0 : Vec Ideal S10000x16 .f32) (x1 : Vec Ideal S1x16 .f32) (x2 : Vec Ideal S16x8 .f32) (j : S10000x8.Idx) :
    k1_pay1 (F := Ideal) x0 x1 x2 j = ∑ k : Fin 16, FloatOps.maximumf (F := Ideal) (FloatOps.addf (F := Ideal) (x0 (lb j k)) (x1 (Cert.Gcn.c1 k))) (FloatOps.ofBits (F := Ideal) .f32 0x00000000#32) * x2 (rb j k) := by
  unfold k1_pay1
  show FloatOps.matmul dot_S10000x16_S16x8_S10000x8_1_0_0_1_n_n none _ _ (constant S10000x8 .f32 0x00000000#32) j = _
  rw [Ideal.matmul_constant_zero_apply, ← Equiv.sum_comp (ValueIdx.contrEquiv1 dot_S10000x16_S16x8_S10000x8_1_0_0_1_n_n 16 rfl rfl).symm]
  refine Finset.sum_congr rfl fun k _ => ?_
  have hk := ValueIdx.contrEquiv1_symm_val dot_S10000x16_S16x8_S10000x8_1_0_0_1_n_n 16 rfl rfl k
  have el : dot_S10000x16_S16x8_S10000x8_1_0_0_1_n_n.lhsIdx j ((ValueIdx.contrEquiv1 dot_S10000x16_S16x8_S10000x8_1_0_0_1_n_n 16 rfl rfl).symm k) = lb j k := funext fun a => Fin.ext (by
    match a with
    | ⟨0, _⟩ => exact lhs_dot_0 _ _
    | ⟨1, _⟩ => exact (lhs_dot_1 _ _).trans hk)
  have er : dot_S10000x16_S16x8_S10000x8_1_0_0_1_n_n.rhsIdx j ((ValueIdx.contrEquiv1 dot_S10000x16_S16x8_S10000x8_1_0_0_1_n_n 16 rfl rfl).symm k) = rb j k := funext fun a => Fin.ext (by
    match a with
    | ⟨0, _⟩ => exact (rhs_dot_0 _ _).trans hk
    | ⟨1, _⟩ => exact rhs_dot_1 _ _)
  rw [el, er]
  show FloatOps.maximumf (F := Ideal) (FloatOps.addf (F := Ideal) (shapeCast S10000x16 x0 shapeCasts_S10000x16_S10000x16 (lb j k))
      (broadcastTo S10000x16 (shapeCast S1x16 x1 shapeCasts_S1x16_S1x16) broadcasts_S1x16_S10000x16 (lb j k)))
      (FloatOps.ofBits (F := Ideal) .f32 0x00000000#32) * x2 (rb j k) = _
  rw [shapeCast_self, bias_apply x1 (lb j k) k rfl]

/-! ## Where the blocks sit in the arrays -/

theorem hz : (![0, 0] : Fin 2 → Nat) = fun _ => 0 := funext fun a => by fin_cases a <;> rfl

/-- The index maps over the ten grid points: the left factor's and the output's block at point `t` is row block `t`
    (all columns); the bias and the right factor are one block each. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every row block is some point's. -/
theorem idx_onto : ∀ q : Fin 10, ∃ t : Fin cfg1.N, win1_3.index t = ![q.val, 0] :=
  (by decide +kernel : ∀ q : Fin 10, ∃ t : Fin grid1.N, win1_3.index t = ![q.val, 0])

/-- Row block `t` of the left factor at (row of `j`, `k`) is the left factor at (row of `j`'s place in the output array, `k`). -/
theorem left_read (c : Dev nD) (t : Fin cfg1.N) (j : S10000x8.Idx) (k : Fin 16) :
    iblk1 V c 0 t (lb j k) = V c main_v36 (Cert.Gcn.l1 (((cfg1.win 3).blk t).view.emb j) k) := by
  obtain ⟨e0, e1, e2, e3, e4, e5, e6, e7⟩ := idx_facts t
  show V c main_v36 (((cfg1.win 0).blk t).view.emb (lb j k)) = _
  refine congrArg (V c main_v36) (funext fun a => Fin.ext ?_)
  match a with
  | ⟨0, _⟩ => show win1_0.index t (0 : Fin 2) * 10000 + 1 * (j 0).val = win1_3.index t (0 : Fin 2) * 10000 + 1 * (j 0).val; omega
  | ⟨1, _⟩ => show win1_0.index t (1 : Fin 2) * 16 + 1 * k.val = k.val; omega

/-- The bias's one block is the bias. -/
theorem bias_read (c : Dev nD) (t : Fin cfg1.N) (k : Fin 16) :
    iblk1 V c 1 t (Cert.Gcn.c1 k) = V c main_v37 (Cert.Gcn.c1 k) := by
  obtain ⟨e0, e1, e2, e3, e4, e5, e6, e7⟩ := idx_facts t
  show V c main_v37 (((cfg1.win 1).blk t).view.emb (Cert.Gcn.c1 k)) = _
  refine congrArg (V c main_v37) (funext fun a => Fin.ext ?_)
  match a with
  | ⟨0, _⟩ => show win1_1.index t (0 : Fin 2) * 1 + 1 * 0 = 0; omega
  | ⟨1, _⟩ => show win1_1.index t (1 : Fin 2) * 16 + 1 * k.val = k.val; omega

/-- The right factor's one block is the right factor; the column of `j` is the column of its place in the output array. -/
theorem right_read (c : Dev nD) (t : Fin cfg1.N) (j : S10000x8.Idx) (k : Fin 16) :
    iblk1 V c 2 t (rb j k) = V c main_arg4 (Cert.Gcn.r1 (((cfg1.win 3).blk t).view.emb j) k) := by
  obtain ⟨e0, e1, e2, e3, e4, e5, e6, e7⟩ := idx_facts t
  show V c main_arg4 (((cfg1.win 2).blk t).view.emb (rb j k)) = _
  refine congrArg (V c main_arg4) (funext fun a => Fin.ext ?_)
  match a with
  | ⟨0, _⟩ => show win1_2.index t (0 : Fin 2) * 16 + 1 * k.val = k.val; omega
  | ⟨1, _⟩ => show win1_2.index t (1 : Fin 2) * 8 + 1 * (j 1).val = win1_3.index t (1 : Fin 2) * 8 + 1 * (j 1).val; omega

/-! ## What a point writes back, and the cover -/

/-- Point `t` writes back row block `t` of stage 1 of the entry arrays. -/
theorem flushed_eq (c : Dev nD) (t : Fin cfg1.N) :
    (dat1 (F := Ideal) V c).flushed 3 t
      = ((cfg1.win 3).blk t).view.read (Elt Ideal) (Cert.Gcn.G1 (V c main_v36) (V c main_v37) (V c main_arg4)) := by
  show (cfg1.win 3).cut (grid1.coords t) ((dat1 (F := Ideal) V c).after 3 t) = _
  rw [after1_3]
  unfold out1_3
  rw [View.canon_unit_zero hz]
  simp only [View.ld_unit_zero (S := S10000x16) hz, View.ld_unit_zero (S := S1x16) hz, View.ld_unit_zero (S := S16x8) hz]
  funext j
  show k1_pay1 (F := Ideal) (iblk1 V c 0 t) (iblk1 V c 1 t) (iblk1 V c 2 t) j
    = Cert.Gcn.G1 (V c main_v36) (V c main_v37) (V c main_arg4) (((cfg1.win 3).blk t).view.emb j)
  rw [pay_apply]
  unfold Cert.Gcn.G1
  refine Finset.sum_congr rfl fun k _ => ?_
  rw [left_read, bias_read, right_read]

/-- An index of the output array is in point `t`'s block iff each coordinate is in the block's range on its axis. -/
theorem mem_blk (t : Fin cfg1.N) (i : S100000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v38).slice (win1_3.rect t)).set ↔ _
  rw [View.set_slice_whole, Rect.mem_set_unit]
  exact Iff.rfl

/-- Row `r` of the output array is in the block of point `r / 10000`. -/
theorem cover (i : S100000x8.Idx) :
    ∃ t : Fin cfg1.N, (cfg1.win 3).flush t = true ∧ i ∈ ((cfg1.win 3).blk t).view.set := by
  have hi0 : (i 0).val < 100000 := (i 0).isLt
  have hi1 : (i 1).val < 8 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 8 ≤ (i 1).val ∧ (i 1).val < win1_3.index t (1 : Fin 2) * 8 + 8; omega

/-- The output array of region 1 after its last grid point is stage 1 of the arrays the region was entered with. -/
theorem value (c : Dev nD) :
    (dat1 (F := Ideal) V c).arrAt 3 cfg1.N = Cert.Gcn.G1 (V c main_v36) (V c main_v37) (V c main_arg4) :=
  (dat1 (F := Ideal) V c).arrAt_eq_of_cover 3 _ (fun t _ => flushed_eq V c t) cover

end Cert.KernelIdeal.Region1

end
-- ==== Proof.Region2.lean ====
/-
  Region 2 of the kernel program, read as a value: whatever the arrays hold when the region is entered (`V`), the
  output array after the region's ten grid points is stage 2 of the entry arrays — row block `t` is written by point `t`
  from row block `t` of the left factor and the whole right factor (and biases), and the ten row blocks cover the array.
-/
import proofs.«414693_j1348619730951_2_alg».proof.Proof.Gen.KernelIdeal.Frame
import proofs.«414693_j1348619730951_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-! ## The body's payload at a local index -/

/-- Row j₀ of the block against column j₁ of the weight: the left factor's entry k of that row, -/
abbrev lj (j : S10000x4.Idx) (k : Fin 8) : S10000x8.Idx := fun a => match a with
  | ⟨0, _⟩ => ⟨(j 0).val, (j 0).isLt⟩
  | ⟨1, _⟩ => ⟨k.val, k.isLt⟩
/-- the weight's entry k of that column, -/
abbrev rj (j : S10000x4.Idx) (k : Fin 8) : S8x4.Idx := fun a => match a with
  | ⟨0, _⟩ => ⟨k.val, k.isLt⟩
  | ⟨1, _⟩ => ⟨(j 1).val, (j 1).isLt⟩
/-- and the output bias's entry of that column. -/
abbrev dj (j : S10000x4.Idx) : S1x4.Idx := fun a => match a with
  | ⟨0, _⟩ => ⟨0, Nat.one_pos⟩
  | ⟨1, _⟩ => ⟨(j 1).val, (j 1).isLt⟩

/-! The contraction's index maps, axis by axis: the left factor is read at (row of the output index, contracted index),
    the right factor at (contracted index, column of the output index). -/

theorem lhs_dot_0 (j : S10000x4.Idx) (q : dot_S10000x8_S8x4_S10000x4_1_0_0_1_n_n.contr.Idx) :
    (dot_S10000x8_S8x4_S10000x4_1_0_0_1_n_n.lhsIdx j q 0).val = (j 0).val := by
  unfold DotDims.lhsIdx
  rw [dif_neg (show ¬(0 : Fin S10000x8.rank) ∈ dot_S10000x8_S8x4_S10000x4_1_0_0_1_n_n.lhsBatch by decide), dif_pos (show (0 : Fin S10000x8.rank) ∈ dot_S10000x8_S8x4_S10000x4_1_0_0_1_n_n.lhsNonContracting by decide)]
  rfl
theorem lhs_dot_1 (j : S10000x4.Idx) (q : dot_S10000x8_S8x4_S10000x4_1_0_0_1_n_n.contr.Idx) :
    (dot_S10000x8_S8x4_S10000x4_1_0_0_1_n_n.lhsIdx j q 1).val = (q ⟨0, by decide⟩).val :=
  dot_S10000x8_S8x4_S10000x4_1_0_0_1_n_n.lhsIdx_val_of_single rfl j q
theorem rhs_dot_0 (j : S10000x4.Idx) (q : dot_S10000x8_S8x4_S10000x4_1_0_0_1_n_n.contr.Idx) :
    (dot_S10000x8_S8x4_S10000x4_1_0_0_1_n_n.rhsIdx j q 0).val = (q ⟨0, by decide⟩).val :=
  dot_S10000x8_S8x4_S10000x4_1_0_0_1_n_n.rhsIdx_val_of_single rfl j q
theorem rhs_dot_1 (j : S10000x4.Idx) (q : dot_S10000x8_S8x4_S10000x4_1_0_0_1_n_n.contr.Idx) :
    (dot_S10000x8_S8x4_S10000x4_1_0_0_1_n_n.rhsIdx j q 1).val = (j 1).val := by
  unfold DotDims.rhsIdx
  rw [dif_neg (show ¬(1 : Fin S8x4.rank) ∈ dot_S10000x8_S8x4_S10000x4_1_0_0_1_n_n.rhsBatch by decide), dif_pos (show (1 : Fin S8x4.rank) ∈ dot_S10000x8_S8x4_S10000x4_1_0_0_1_n_n.rhsNonContracting by decide)]
  rfl

/-- The block product into a zero accumulator, at a local index: the plain sum over the contracted axis. -/
theorem product_apply (y : FVec Ideal S10000x8 .bf16) (w : FVec Ideal S8x4 .bf16) (j : S10000x4.Idx) :
    matmul dot_S10000x8_S8x4_S10000x4_1_0_0_1_n_n none y w (constant S10000x4 .f32 0x00000000#32) j
      = ∑ k : Fin 8, y (lj j k) * w (rj j k) := by
  show FloatOps.matmul dot_S10000x8_S8x4_S10000x4_1_0_0_1_n_n none y w (constant S10000x4 .f32 0x00000000#32) j = _
  rw [Ideal.matmul_constant_zero_apply, ← Equiv.sum_comp (ValueIdx.contrEquiv1 dot_S10000x8_S8x4_S10000x4_1_0_0_1_n_n 8 rfl rfl).symm]
  refine Finset.sum_congr rfl fun k _ => ?_
  have hk := ValueIdx.contrEquiv1_symm_val dot_S10000x8_S8x4_S10000x4_1_0_0_1_n_n 8 rfl rfl k
  have el : dot_S10000x8_S8x4_S10000x4_1_0_0_1_n_n.lhsIdx j ((ValueIdx.contrEquiv1 dot_S10000x8_S8x4_S10000x4_1_0_0_1_n_n 8 rfl rfl).symm k) = lj j k := funext fun a => Fin.ext (by
    match a with
    | ⟨0, _⟩ => exact lhs_dot_0 _ _
    | ⟨1, _⟩ => exact (lhs_dot_1 _ _).trans hk)
  have er : dot_S10000x8_S8x4_S10000x4_1_0_0_1_n_n.rhsIdx j ((ValueIdx.contrEquiv1 dot_S10000x8_S8x4_S10000x4_1_0_0_1_n_n 8 rfl rfl).symm k) = rj j k := funext fun a => Fin.ext (by
    match a with
    | ⟨0, _⟩ => exact (rhs_dot_0 _ _).trans hk
    | ⟨1, _⟩ => exact rhs_dot_1 _ _)
  rw [el, er]

/-- The payload of the body's one store at a local index: the biased, rectified row of the block against the weight's
    column, plus the output bias's entry of that column. -/
theorem payload_apply (x0 : Vec Ideal S10000x8 .f32) (x1 : Vec Ideal S1x8 .f32) (x2 : Vec Ideal S8x4 .f32) (x3 : Vec Ideal S1x4 .f32)
    (j : S10000x4.Idx) :
    k2_pay1 x0 x1 x2 x3 j = FloatOps.addf (F := Ideal) (φ := .f32)
      (∑ k : Fin 8, FloatOps.maximumf (F := Ideal) (FloatOps.addf (F := Ideal) (x0 (lj j k)) (x1 (Cert.Gcn.c2 k))) (FloatOps.ofBits (F := Ideal) .f32 0x00000000#32) * x2 (rj j k))
      (x3 (dj j)) := by
  unfold k2_pay1
  simp only [shapeCast_self]
  show FloatOps.addf (F := Ideal) (matmul _ none _ _ (constant S10000x4 .f32 0x00000000#32) j) (broadcastTo S10000x4 x3 broadcasts_S1x4_S10000x4 j) = _
  rw [product_apply, broadcastTo_apply x3 broadcasts_S1x4_S10000x4 j (dj j) (fun a => match a with
    | ⟨0, _⟩ => by show 0 = if (1 : Nat) = 1 then 0 else (j 0).val; rw [if_pos rfl]
    | ⟨1, _⟩ => by show (j 1).val = if (4 : Nat) = 1 then 0 else (j 1).val; rw [if_neg (by decide)])]
  congr 1
  refine Finset.sum_congr rfl fun k _ => ?_
  show FloatOps.maximumf (F := Ideal) (FloatOps.addf (F := Ideal) (x0 (lj j k)) (broadcastTo S10000x8 x1 broadcasts_S1x8_S10000x8 (lj j k))) (Scalar.ofBits .f32 0x00000000#32) * x2 (rj j k) = _
  rw [broadcastTo_apply x1 broadcasts_S1x8_S10000x8 (lj j k) (Cert.Gcn.c2 k) (fun a => match a with
    | ⟨0, _⟩ => by show 0 = if (1 : Nat) = 1 then 0 else (j 0).val; rw [if_pos rfl]
    | ⟨1, _⟩ => by show k.val = if (8 : Nat) = 1 then 0 else k.val; rw [if_neg (by decide)])]

/-! ## The grid: which blocks a point stages -/

theorem offsets_zero : (![0, 0] : Fin 2 → Nat) = fun _ => 0 := funext fun a => by fin_cases a <;> rfl

/-- The printed index maps, decided over the ten points: the left array and the output move by row blocks with the
    point, the bias, the weight and the output bias stay at their one block. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (j₀, k) of the left block at point t is the left array's entry (row of the output's global index, k). -/
theorem left_read (c : Dev nD) (t : Fin cfg2.N) (j : S10000x4.Idx) (k : Fin 8) :
    iblk2 V c 0 t (lj j k) = V c main_v45 (Cert.Gcn.l2 (((cfg2.win 4).blk t).view.emb j) k) := by
  show V c main_v45 (((cfg2.win 0).blk t).view.emb (lj j k)) = V c main_v45 _
  refine congrArg _ (funext fun a => Fin.ext ?_)
  obtain ⟨e00, e01, e10, e11, e20, e21, e30, e31, e40, e41⟩ := index_facts t
  match a with
  | ⟨0, _⟩ => show win2_0.index t (0 : Fin 2) * 10000 + 1 * (j 0).val = win2_4.index t (0 : Fin 2) * 10000 + 1 * (j 0).val; omega
  | ⟨1, _⟩ => show win2_0.index t (1 : Fin 2) * 8 + 1 * k.val = k.val; omega

/-- The bias block is the whole bias. -/
theorem bias_read (c : Dev nD) (t : Fin cfg2.N) (k : Fin 8) :
    iblk2 V c 1 t (Cert.Gcn.c2 k) = V c main_v46 (Cert.Gcn.c2 k) := by
  show V c main_v46 (((cfg2.win 1).blk t).view.emb (Cert.Gcn.c2 k)) = V c main_v46 _
  refine congrArg _ (funext fun a => Fin.ext ?_)
  obtain ⟨e00, e01, e10, e11, e20, e21, e30, e31, e40, e41⟩ := index_facts t
  match a with
  | ⟨0, _⟩ => show win2_1.index t (0 : Fin 2) * 1 + 1 * 0 = 0; omega
  | ⟨1, _⟩ => show win2_1.index t (1 : Fin 2) * 8 + 1 * k.val = k.val; omega

/-- The weight block is the whole weight: its entry (k, j₁) is the weight's entry (k, column of the output's global index). -/
theorem weight_read (c : Dev nD) (t : Fin cfg2.N) (j : S10000x4.Idx) (k : Fin 8) :
    iblk2 V c 2 t (rj j k) = V c main_arg6 (Cert.Gcn.r2 (((cfg2.win 4).blk t).view.emb j) k) := by
  show V c main_arg6 (((cfg2.win 2).blk t).view.emb (rj j k)) = V c main_arg6 _
  refine congrArg _ (funext fun a => Fin.ext ?_)
  obtain ⟨e00, e01, e10, e11, e20, e21, e30, e31, e40, e41⟩ := index_facts t
  match a with
  | ⟨0, _⟩ => show win2_2.index t (0 : Fin 2) * 8 + 1 * k.val = k.val; omega
  | ⟨1, _⟩ => show win2_2.index t (1 : Fin 2) * 4 + 1 * (j 1).val = win2_4.index t (1 : Fin 2) * 4 + 1 * (j 1).val; omega

/-- The output bias block is the whole output bias. -/
theorem outbias_read (c : Dev nD) (t : Fin cfg2.N) (j : S10000x4.Idx) :
    iblk2 V c 3 t (dj j) = V c main_v47 (Cert.Gcn.d2 (((cfg2.win 4).blk t).view.emb j)) := by
  show V c main_v47 (((cfg2.win 3).blk t).view.emb (dj j)) = V c main_v47 _
  refine congrArg _ (funext fun a => Fin.ext ?_)
  obtain ⟨e00, e01, e10, e11, e20, e21, e30, e31, e40, e41⟩ := index_facts t
  match a with
  | ⟨0, _⟩ => show win2_3.index t (0 : Fin 2) * 1 + 1 * 0 = 0; omega
  | ⟨1, _⟩ => show win2_3.index t (1 : Fin 2) * 4 + 1 * (j 1).val = win2_4.index t (1 : Fin 2) * 4 + 1 * (j 1).val; omega

/-! ## What a point writes back -/

/-- Point t writes back row block t of stage 2 of the entry arrays. -/
theorem flushed_eq (c : Dev nD) (t : Fin cfg2.N) :
    (dat2 (F := Ideal) V c).flushed 4 t = ((cfg2.win 4).blk t).view.read (Elt Ideal)
      (Cert.Gcn.G2 (V c main_v45) (V c main_v46) (V c main_arg6) (V c main_v47)) := by
  show (cfg2.win 4).cut (grid2.coords t) ((dat2 V c).after 4 t) = _
  rw [after2_4]
  unfold out2_4
  rw [View.canon_unit_zero offsets_zero]
  simp only [View.ld_unit_zero (S := S10000x8) offsets_zero, View.ld_unit_zero (S := S1x8) offsets_zero,
    View.ld_unit_zero (S := S8x4) offsets_zero, View.ld_unit_zero (S := S1x4) offsets_zero]
  funext j
  show k2_pay1 (iblk2 V c 0 t) (iblk2 V c 1 t) (iblk2 V c 2 t) (iblk2 V c 3 t) j
    = Cert.Gcn.G2 (V c main_v45) (V c main_v46) (V c main_arg6) (V c main_v47) (((cfg2.win 4).blk t).view.emb j)
  rw [payload_apply, outbias_read]
  unfold Cert.Gcn.G2
  refine congrArg (fun s => FloatOps.addf (F := Ideal) (φ := .f32) s (V c main_v47 (Cert.Gcn.d2 (((cfg2.win 4).blk t).view.emb j)))) ?_
  refine Finset.sum_congr rfl fun k _ => ?_
  rw [left_read, bias_read, weight_read]

/-! ## The ten row blocks cover the array -/

/-- An index of the array is in point t's block iff each coordinate is in the block's range on its axis. -/
theorem mem_block (t : Fin cfg2.N) (i : S100000x4.Idx) :
    i ∈ ((cfg2.win 4).blk t).view.set ↔ ∀ a : Fin 2, win2_4.index t a * S10000x4.size a ≤ (i a).val ∧ (i a).val < win2_4.index t a * S10000x4.size a + S10000x4.size a := by
  show i ∈ ((View.whole main_v48).slice (win2_4.rect t)).set ↔ _
  rw [View.set_slice_whole, Rect.mem_set_unit]
  exact Iff.rfl

/-- Row r of the array is in the block of point r / 10000. -/
theorem covered (i : S100000x4.Idx) :
    ∃ t : Fin cfg2.N, (cfg2.win 4).flush t = true ∧ i ∈ ((cfg2.win 4).blk t).view.set := by
  have hi0 : (i 0).val < 100000 := (i 0).isLt
  have hi1 : (i 1).val < 4 := (i 1).isLt
  have ht : (i 0).val / 10000 < grid2.N := by rw [N_2]; omega
  refine ⟨⟨(i 0).val / 10000, ht⟩, flush2_4 _, ?_⟩
  rw [mem_block]
  obtain ⟨e00, e01, e10, e11, e20, e21, e30, e31, e40, e41⟩ := index_facts ⟨(i 0).val / 10000, ht⟩
  have e40' : win2_4.index ⟨(i 0).val / 10000, ht⟩ (0 : Fin 2) = (i 0).val / 10000 := e40
  intro a
  match a with
  | ⟨0, _⟩ => show win2_4.index _ (0 : Fin 2) * 10000 ≤ (i 0).val ∧ (i 0).val < win2_4.index _ (0 : Fin 2) * 10000 + 10000; omega
  | ⟨1, _⟩ => show win2_4.index _ (1 : Fin 2) * 4 ≤ (i 1).val ∧ (i 1).val < win2_4.index _ (1 : Fin 2) * 4 + 4; omega

/-! ## The region's output array -/

/-- The output array of region 2 after its last grid point is stage 2 of the arrays the region was entered with. -/
theorem value (c : Dev nD) :
    (dat2 (F := Ideal) V c).arrAt 4 cfg2.N = Cert.Gcn.G2 (V c main_v45) (V c main_v46) (V c main_arg6) (V c main_v47) := by
  exact (dat2 (F := Ideal) V c).arrAt_eq_of_cover 4 _ (fun t _ => flushed_eq V c t) covered

end Cert.KernelIdeal.Region2

end
-- ==== Proof.RefStages.lean ====
/-
  The reference's three contractions are the three stages: each `dot_general` over one contracted axis is, at an
  output index, the sum over that axis of the products; its left factor is the previous layer's `max (sum + bias, 0)`
  read entry by entry (the bias broadcast along the rows), and the last stage adds the output bias.
-/
import proofs.«414693_j1348619730951_2_alg».proof.Proof.Gen.ReferenceIdeal.Read
import proofs.«414693_j1348619730951_2_alg».proof.Proof.Spec
import Idealize.ShloMosaic.Lib.Pipeline.Value
import Idealize.ShloMosaic.Lib.ValueIdx
import Idealize.ShloMosaic.PureOps.Ideal.Laws

noncomputable section

open Idealize.ShloMosaic

namespace Cert.ReferenceIdeal.RefStages

open Cert.ReferenceIdeal Cert.ReferenceIdeal.Gen Cert.ReferenceIdeal.Read Cert.Gcn

/-- The first contraction is stage 0. -/
theorem stage0 (x0 : (⟨S100000x32, .f32⟩ : BufTy).Contents (Elt Ideal)) (x2 : (⟨S32x16, .f32⟩ : BufTy).Contents (Elt Ideal)) :
    val_main_v29 (F := Ideal) x0 x2 = G0 x0 x2 := by
  funext i
  rw [val_main_v29_apply]
  rfl

/-- The second contraction is stage 1 of the first neighbourhood sum, for any one-row matrix `b` holding the bias. -/
theorem stage1 (x0 : (⟨S100000x32, .f32⟩ : BufTy).Contents (Elt Ideal)) (x1 : (⟨S2x6400000, .i32⟩ : BufTy).Contents (Elt Ideal))
    (x2 : (⟨S32x16, .f32⟩ : BufTy).Contents (Elt Ideal)) (x3 : (⟨S16, .f32⟩ : BufTy).Contents (Elt Ideal))
    (x4 : (⟨S16x8, .f32⟩ : BufTy).Contents (Elt Ideal))
    (b : C Cert.KernelIdeal.S1x16) (hb : ∀ k : Fin 16, b (c1 k) = x3 (e1 k)) :
    val_main_v76 (F := Ideal) x0 x1 x2 x3 x4 = G1 (val_main_v42 (F := Ideal) x0 x1 x2) b x4 := by
  funext i
  rw [val_main_v76_apply]
  unfold Cert.Gcn.G1
  refine Finset.sum_congr rfl fun k _ => ?_
  -- the left factor at (row of i, k): max (sum + bias, 0), the broadcast bias read back to entry k of the vector
  rw [val_main_v46_apply, val_main_v45_apply, val_main_v44_apply, val_main_v43_apply, val_main_call0_v0_apply,
    val_main_call0_cst_apply, hb k]
  rfl

/-- The last contraction plus the output bias is stage 2 of the second neighbourhood sum. -/
theorem stage2 (x0 : (⟨S100000x32, .f32⟩ : BufTy).Contents (Elt Ideal)) (x1 : (⟨S2x6400000, .i32⟩ : BufTy).Contents (Elt Ideal))
    (x2 : (⟨S32x16, .f32⟩ : BufTy).Contents (Elt Ideal)) (x3 : (⟨S16, .f32⟩ : BufTy).Contents (Elt Ideal))
    (x4 : (⟨S16x8, .f32⟩ : BufTy).Contents (Elt Ideal)) (x5 : (⟨S8, .f32⟩ : BufTy).Contents (Elt Ideal))
    (x6 : (⟨S8x4, .f32⟩ : BufTy).Contents (Elt Ideal)) (x7 : (⟨S4, .f32⟩ : BufTy).Contents (Elt Ideal))
    (b : C Cert.KernelIdeal.S1x8) (hb : ∀ k : Fin 8, b (c2 k) = x5 (e2 k))
    (bf : C Cert.KernelIdeal.S1x4) (hbf : ∀ i : Cert.KernelIdeal.S100000x4.Idx, bf (d2 i) = x7 (f2 i)) :
    val_main_v97 (F := Ideal) x0 x1 x2 x3 x4 x5 x6 x7 = G2 (val_main_v89 (F := Ideal) x0 x1 x2 x3 x4) b x6 bf := by
  funext i
  rw [val_main_v97_apply, val_main_v94_apply, val_main_v96_apply, val_main_v95_apply]
  unfold Cert.Gcn.G2
  rw [hbf i]
  -- the contraction, term by term: the left factor at (row of i, k) is max (sum + bias, 0)
  have hs : (∑ k : Fin 8, (val_main_v93 (F := Ideal) x0 x1 x2 x3 x4 x5) (lidx_main_v94 i k) * x6 (ridx_main_v94 i k))
      = ∑ k : Fin 8, FloatOps.maximumf (F := Ideal) (FloatOps.addf (F := Ideal) (val_main_v89 (F := Ideal) x0 x1 x2 x3 x4 (l2 i k)) (b (c2 k))) (FloatOps.ofBits (F := Ideal) .f32 0x00000000#32) * x6 (r2 i k) := by
    refine Finset.sum_congr rfl fun k _ => ?_
    rw [val_main_v93_apply, val_main_v92_apply, val_main_v91_apply, val_main_v90_apply, val_main_call1_v0_apply,
      val_main_call1_cst_apply, hb k]
    rfl
  rw [hs]
  rfl

end Cert.ReferenceIdeal.RefStages

end
-- ==== Proof.Fold.lean ====
/-
  The kernel program's buffers at each boundary between its host stretches and its three regions, walked from the
  launch memory to the result, each in the reference's own stages:
    after the prologue            the index vectors, the edge normalization, the arguments as launched;
    after region 0                h₁ = x · W₁                                   (the reference's first contraction);
    entering region 1             the first neighbourhood sum a₁ of h₁ (given the edge range), b₁ as one row, W₂;
    after region 1                h₂ = relu (a₁ + b₁) · W₂                      (the second contraction);
    entering region 2             the second neighbourhood sum a₂ of h₂, b₂ and b_fc as one row each, W_fc;
    after region 2                relu (a₂ + b₂) · W_fc + b_fc                  (the reference's result).
  A buffer no operation of a stretch writes and no window of a region names keeps its contents across it.
-/
import proofs.«414693_j1348619730951_2_alg».proof.Proof.Gen.KernelIdeal.Frame
import proofs.«414693_j1348619730951_2_alg».proof.Proof.Gen.ReferenceIdeal.Read
import proofs.«414693_j1348619730951_2_alg».proof.Proof.HostGlue
import proofs.«414693_j1348619730951_2_alg».proof.Proof.Bridge
import proofs.«414693_j1348619730951_2_alg».proof.Proof.Region0
import proofs.«414693_j1348619730951_2_alg».proof.Proof.Region1
import proofs.«414693_j1348619730951_2_alg».proof.Proof.Region2
import proofs.«414693_j1348619730951_2_alg».proof.Proof.RefStages
import Idealize.ShloMosaic.Lib.StableHlo.Run
import Idealize.ShloMosaic.Lib.Pipeline.Value
import Idealize.ShloMosaic.PureOps.Ideal

noncomputable section

set_option maxRecDepth 16384

open Idealize.ShloMosaic Idealize.ShloMosaic.TcCoe Idealize.SL.Sem Idealize.ShloMosaic.StableHlo

namespace Cert.KernelIdeal.Fold

open Cert.KernelIdeal Cert.KernelIdeal.Gen Cert.KernelIdeal.HostDefs
open Cert.ReferenceIdeal.Read (val_main_v29 val_main_v42 val_main_v76 val_main_v89 val_main_v97)

/-! ## A bias vector as a one-row matrix -/

/-- The reshape of a 16-vector to one row holds at (0, k) the vector's entry k. -/
theorem row16 (x : FVec Ideal S16 .f32) (k : Fin 16) :
    shapeCast S1x16 x Facts₀.shapeCasts_S16_S1x16 (Cert.Gcn.c1 k) = x (Cert.Gcn.e1 k) :=
  shapeCast_apply x _ _ _ (by
    rw [Shape.rowMajor_val_two, Shape.rowMajor_val_one]
    show k.val = 0 * 16 + k.val
    omega)
theorem row8 (x : FVec Ideal S8 .f32) (k : Fin 8) :
    shapeCast S1x8 x Facts₀.shapeCasts_S8_S1x8 (Cert.Gcn.c2 k) = x (Cert.Gcn.e2 k) :=
  shapeCast_apply x _ _ _ (by
    rw [Shape.rowMajor_val_two, Shape.rowMajor_val_one]
    show k.val = 0 * 8 + k.val
    omega)
theorem row4 (x : FVec Ideal S4 .f32) (i : S100000x4.Idx) :
    shapeCast S1x4 x Facts₀.shapeCasts_S4_S1x4 (Cert.Gcn.d2 i) = x (Cert.Gcn.f2 i) :=
  shapeCast_apply x _ _ _ (by
    rw [Shape.rowMajor_val_two, Shape.rowMajor_val_one]
    show (i 1).val = 0 * 4 + (i 1).val
    omega)

/-! ## Reading a host stretch: a buffer it never writes, and the values it computes, from ANY contents `W` before it -/

/-- A buffer none of the stretch's operations writes keeps its contents. -/
local macro "kept_across " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- A value carried into a typed reference's buffer and back is the value. -/
theorem ofBuf_toBuf {T : BufTy} (x : TRef sig T) (v : T.Contents (Elt Ideal)) : x.ofBuf (x.toBuf v) = v := by
  obtain ⟨r, rfl, _, _⟩ := x
  rfl
/-- At the buffers the outlined gather reads and writes, whose declared types are the values' types, the carrying is the identity. -/
theorem ofBuf_v5 (h1 h2 h3) (v : IVec S6500000 32) :
    (TRef.of (T := ⟨S6500000, .i32⟩) main_v5 h1 h2 h3).ofBuf (Val := Elt Ideal) v = v := rfl
theorem ofBuf_v29 (h1 h2 h3) (v : FVec Ideal S100000x16 .f32) :
    (TRef.of (T := ⟨S100000x16, .f32⟩) main_v29 h1 h2 h3).ofBuf (Val := Elt Ideal) v = v := rfl
theorem toBuf_v30 (h1 h2 h3) (v : FVec Ideal S6500000x16 .f32) :
    (TRef.of (T := ⟨S6500000x16, .f32⟩) main_v30 h1 h2 h3).toBuf (Val := Elt Ideal) v = v := rfl
theorem ofBuf_v38 (h1 h2 h3) (v : FVec Ideal S100000x8 .f32) :
    (TRef.of (T := ⟨S100000x8, .f32⟩) main_v38 h1 h2 h3).ofBuf (Val := Elt Ideal) v = v := rfl
theorem toBuf_v39 (h1 h2 h3) (v : FVec Ideal S6500000x8 .f32) :
    (TRef.of (T := ⟨S6500000x8, .f32⟩) main_v39 h1 h2 h3).toBuf (Val := Elt Ideal) v = v := rfl

section Reads
variable (W : Valuation τ sig (Elt Ideal))

set_option maxHeartbeats 4000000 in
/-- The prologue's edge normalization, from the edge array. -/
theorem norm_of : StableHlo.after hostOps0 W (Proc.devRef .tc main_v28)
    = normK (F := Ideal) (srcK (W (Proc.devRef .tc main_arg1))) (dstK (W (Proc.devRef .tc main_arg1))) := by
  after_results_simp <;> rfl

set_option maxHeartbeats 4000000 in
/-- The stretch between regions 0 and 1: the neighbourhood sum of the array region 0 left. -/
theorem agg16_of : StableHlo.after hostOps1_1 (StableHlo.after hostOps1 W) (Proc.devRef .tc main_v36)
    = aggK16 (F := Ideal) (W (Proc.devRef .tc main_v29)) (W (Proc.devRef .tc main_v5)) (W (Proc.devRef .tc main_v6)) (W (Proc.devRef .tc main_v28)) := by
  after_results_simp
  simp only [ofBuf_toBuf, ofBuf_v5, ofBuf_v29, toBuf_v30]
  rfl

set_option maxHeartbeats 4000000 in
theorem b1_of : StableHlo.after hostOps1_1 (StableHlo.after hostOps1 W) (Proc.devRef .tc main_v37)
    = shapeCast S1x16 (W (Proc.devRef .tc main_arg3)) Facts₀.shapeCasts_S16_S1x16 := by
  after_results_simp <;> rfl

set_option maxHeartbeats 4000000 in
/-- The stretch between regions 1 and 2: the neighbourhood sum of the array region 1 left. -/
theorem agg8_of : StableHlo.after hostOps2_1 (StableHlo.after hostOps2 W) (Proc.devRef .tc main_v45)
    = aggK8 (F := Ideal) (W (Proc.devRef .tc main_v38)) (W (Proc.devRef .tc main_v5)) (W (Proc.devRef .tc main_v6)) (W (Proc.devRef .tc main_v28)) := by
  after_results_simp
  simp only [ofBuf_toBuf, ofBuf_v5, ofBuf_v38, toBuf_v39]
  rfl

set_option maxHeartbeats 4000000 in
theorem b2_of : StableHlo.after hostOps2_1 (StableHlo.after hostOps2 W) (Proc.devRef .tc main_v46)
    = shapeCast S1x8 (W (Proc.devRef .tc main_arg5)) Facts₀.shapeCasts_S8_S1x8 := by
  after_results_simp <;> rfl

set_option maxHeartbeats 4000000 in
theorem bf_of : StableHlo.after hostOps2_1 (StableHlo.after hostOps2 W) (Proc.devRef .tc main_v47)
    = shapeCast S1x4 (W (Proc.devRef .tc main_arg7)) Facts₀.shapeCasts_S4_S1x4 := by
  after_results_simp <;> rfl

end Reads

variable (m : (ℓ : Loc nD τ sig) → Buf (Elt Ideal) ℓ) (ρ : Dev nD → PrngReg)

/-! ## After the prologue (region 0's entry) -/

theorem W1_src (c : Dev nD) : W1 m ρ c (Proc.devRef .tc main_v5) = srcK (m ((c : Thread nD τ).loc main_arg1)) := by
  show StableHlo.after hostOps0 (W0 m ρ c) (Proc.devRef .tc main_v5) = _
  after_results <;> rfl
theorem W1_dst (c : Dev nD) : W1 m ρ c (Proc.devRef .tc main_v6) = dstK (m ((c : Thread nD τ).loc main_arg1)) := by
  show StableHlo.after hostOps0 (W0 m ρ c) (Proc.devRef .tc main_v6) = _
  after_results <;> rfl
theorem W1_norm (c : Dev nD) : W1 m ρ c (Proc.devRef .tc main_v28) = normK (F := Ideal) (srcK (m ((c : Thread nD τ).loc main_arg1))) (dstK (m ((c : Thread nD τ).loc main_arg1))) :=
  norm_of (W0 m ρ c)
theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

/-! ## After region 0: h₁ -/

theorem W2_h1 (c : Dev nD) : W2 m ρ c (Proc.devRef .tc main_v29) = val_main_v29 (F := Ideal) (m ((c : Thread nD τ).loc main_arg0)) (m ((c : Thread nD τ).loc main_arg2)) :=
  (W2_arr m ρ c 2).trans ((Region0.value (V1 m ρ) c).trans (by
    rw [show V1 m ρ c main_arg0 = (m ((c : Thread nD τ).loc main_arg0)) from W1_arg0 m ρ c, show V1 m ρ c main_arg2 = (m ((c : Thread nD τ).loc main_arg2)) from W1_arg2 m ρ c]
    exact (Cert.ReferenceIdeal.RefStages.stage0 _ _).symm))

/-! ## Region 1's entry: the first neighbourhood sum, the bias row, the weight -/

theorem W4_agg (c : Dev nD) : W4 m ρ c (Proc.devRef .tc main_v36)
    = aggK16 (F := Ideal) (W2 m ρ c (Proc.devRef .tc main_v29)) (W2 m ρ c (Proc.devRef .tc main_v5)) (W2 m ρ c (Proc.devRef .tc main_v6)) (W2 m ρ c (Proc.devRef .tc main_v28)) := by
  exact agg16_of (W2 m ρ c)
theorem W4_main_v5 (c : Dev nD) : W4 m ρ c (Proc.devRef .tc main_v5) = W1 m ρ c (Proc.devRef .tc main_v5) :=
  calc W4 m ρ c (Proc.devRef .tc main_v5)
    _ = W3 m ρ c (Proc.devRef .tc main_v5) := by kept_across hostOps1_1
    _ = W2 m ρ c (Proc.devRef .tc main_v5) := by kept_across hostOps1
    _ = W1 m ρ c (Proc.devRef .tc main_v5) := W2_of_ne m ρ c main_v5 (by decide)
theorem W4_main_v6 (c : Dev nD) : W4 m ρ c (Proc.devRef .tc main_v6) = W1 m ρ c (Proc.devRef .tc main_v6) :=
  calc W4 m ρ c (Proc.devRef .tc main_v6)
    _ = W3 m ρ c (Proc.devRef .tc main_v6) := by kept_across hostOps1_1
    _ = W2 m ρ c (Proc.devRef .tc main_v6) := by kept_across hostOps1
    _ = W1 m ρ c (Proc.devRef .tc main_v6) := W2_of_ne m ρ c main_v6 (by decide)
theorem W4_main_v28 (c : Dev nD) : W4 m ρ c (Proc.devRef .tc main_v28) = W1 m ρ c (Proc.devRef .tc main_v28) :=
  calc W4 m ρ c (Proc.devRef .tc main_v28)
    _ = W3 m ρ c (Proc.devRef .tc main_v28) := by kept_across hostOps1_1
    _ = W2 m ρ c (Proc.devRef .tc main_v28) := by kept_across hostOps1
    _ = W1 m ρ c (Proc.devRef .tc main_v28) := W2_of_ne m ρ c main_v28 (by decide)
theorem W4_main_arg3 (c : Dev nD) : W4 m ρ c (Proc.devRef .tc main_arg3) = W1 m ρ c (Proc.devRef .tc main_arg3) :=
  calc W4 m ρ c (Proc.devRef .tc main_arg3)
    _ = W3 m ρ c (Proc.devRef .tc main_arg3) := by kept_across hostOps1_1
    _ = W2 m ρ c (Proc.devRef .tc main_arg3) := by kept_across hostOps1
    _ = W1 m ρ c (Proc.devRef .tc main_arg3) := W2_of_ne m ρ c main_arg3 (by decide)
theorem W4_main_arg4 (c : Dev nD) : W4 m ρ c (Proc.devRef .tc main_arg4) = W1 m ρ c (Proc.devRef .tc main_arg4) :=
  calc W4 m ρ c (Proc.devRef .tc main_arg4)
    _ = W3 m ρ c (Proc.devRef .tc main_arg4) := by kept_across hostOps1_1
    _ = W2 m ρ c (Proc.devRef .tc main_arg4) := by kept_across hostOps1
    _ = W1 m ρ c (Proc.devRef .tc main_arg4) := W2_of_ne m ρ c main_arg4 (by decide)
theorem W4_main_arg5 (c : Dev nD) : W4 m ρ c (Proc.devRef .tc main_arg5) = W1 m ρ c (Proc.devRef .tc main_arg5) :=
  calc W4 m ρ c (Proc.devRef .tc main_arg5)
    _ = W3 m ρ c (Proc.devRef .tc main_arg5) := by kept_across hostOps1_1
    _ = W2 m ρ c (Proc.devRef .tc main_arg5) := by kept_across hostOps1
    _ = W1 m ρ c (Proc.devRef .tc main_arg5) := W2_of_ne m ρ c main_arg5 (by decide)
theorem W4_main_arg6 (c : Dev nD) : W4 m ρ c (Proc.devRef .tc main_arg6) = W1 m ρ c (Proc.devRef .tc main_arg6) :=
  calc W4 m ρ c (Proc.devRef .tc main_arg6)
    _ = W3 m ρ c (Proc.devRef .tc main_arg6) := by kept_across hostOps1_1
    _ = W2 m ρ c (Proc.devRef .tc main_arg6) := by kept_across hostOps1
    _ = W1 m ρ c (Proc.devRef .tc main_arg6) := W2_of_ne m ρ c main_arg6 (by decide)
theorem W4_main_arg7 (c : Dev nD) : W4 m ρ c (Proc.devRef .tc main_arg7) = W1 m ρ c (Proc.devRef .tc main_arg7) :=
  calc W4 m ρ c (Proc.devRef .tc main_arg7)
    _ = W3 m ρ c (Proc.devRef .tc main_arg7) := by kept_across hostOps1_1
    _ = W2 m ρ c (Proc.devRef .tc main_arg7) := by kept_across hostOps1
    _ = W1 m ρ c (Proc.devRef .tc main_arg7) := W2_of_ne m ρ c main_arg7 (by decide)
theorem W4_b1 (c : Dev nD) : W4 m ρ c (Proc.devRef .tc main_v37) = shapeCast S1x16 (m ((c : Thread nD τ).loc main_arg3)) Facts₀.shapeCasts_S16_S1x16 := by
  refine (b1_of (W2 m ρ c)).trans ?_
  rw [W2_of_ne m ρ c main_arg3 (by decide), W1_arg3]

section
variable (c : Dev nD) (hedge : ∀ j, ((m ((c : Thread nD τ).loc main_arg1)) j).toNat < 100000)
include hedge

theorem W4_a1 : W4 m ρ c (Proc.devRef .tc main_v36) = val_main_v42 (F := Ideal) (m ((c : Thread nD τ).loc main_arg0)) (m ((c : Thread nD τ).loc main_arg1)) (m ((c : Thread nD τ).loc main_arg2)) := by
  rw [W4_agg, W2_h1, W2_of_ne m ρ c main_v5 (by decide), W2_of_ne m ρ c main_v6 (by decide), W2_of_ne m ρ c main_v28 (by decide),
    W1_src, W1_dst, W1_norm]
  exact Bridge.agg16_eq _ hedge _ _

/-! ## After region 1: h₂ -/

theorem W5_h2 : W5 m ρ c (Proc.devRef .tc main_v38) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 3).trans ((Region1.value (V4 m ρ) c).trans (by
    rw [show V4 m ρ c main_v36 = _ from W4_a1 m ρ c hedge, show V4 m ρ c main_v37 = _ from W4_b1 m ρ c,
      show V4 m ρ c main_arg4 = (m ((c : Thread nD τ).loc main_arg4)) from (W4_main_arg4 m ρ c).trans (W1_arg4 m ρ c)]
    exact (Cert.ReferenceIdeal.RefStages.stage1 _ _ _ _ _ _ (fun k => row16 _ k)).symm))
end
theorem W5_main_v5 (c : Dev nD) : W5 m ρ c (Proc.devRef .tc main_v5) = W1 m ρ c (Proc.devRef .tc main_v5) :=
  (W5_of_ne m ρ c main_v5 (by decide)).trans (W4_main_v5 m ρ c)
theorem W5_main_v6 (c : Dev nD) : W5 m ρ c (Proc.devRef .tc main_v6) = W1 m ρ c (Proc.devRef .tc main_v6) :=
  (W5_of_ne m ρ c main_v6 (by decide)).trans (W4_main_v6 m ρ c)
theorem W5_main_v28 (c : Dev nD) : W5 m ρ c (Proc.devRef .tc main_v28) = W1 m ρ c (Proc.devRef .tc main_v28) :=
  (W5_of_ne m ρ c main_v28 (by decide)).trans (W4_main_v28 m ρ c)
theorem W5_main_arg5 (c : Dev nD) : W5 m ρ c (Proc.devRef .tc main_arg5) = W1 m ρ c (Proc.devRef .tc main_arg5) :=
  (W5_of_ne m ρ c main_arg5 (by decide)).trans (W4_main_arg5 m ρ c)
theorem W5_main_arg6 (c : Dev nD) : W5 m ρ c (Proc.devRef .tc main_arg6) = W1 m ρ c (Proc.devRef .tc main_arg6) :=
  (W5_of_ne m ρ c main_arg6 (by decide)).trans (W4_main_arg6 m ρ c)
theorem W5_main_arg7 (c : Dev nD) : W5 m ρ c (Proc.devRef .tc main_arg7) = W1 m ρ c (Proc.devRef .tc main_arg7) :=
  (W5_of_ne m ρ c main_arg7 (by decide)).trans (W4_main_arg7 m ρ c)

/-! ## Region 2's entry: the second neighbourhood sum, the two bias rows, the weight -/

theorem W7_agg (c : Dev nD) : W7 m ρ c (Proc.devRef .tc main_v45)
    = aggK8 (F := Ideal) (W5 m ρ c (Proc.devRef .tc main_v38)) (W5 m ρ c (Proc.devRef .tc main_v5)) (W5 m ρ c (Proc.devRef .tc main_v6)) (W5 m ρ c (Proc.devRef .tc main_v28)) := by
  exact agg8_of (W5 m ρ c)
theorem W7_b2 (c : Dev nD) : W7 m ρ c (Proc.devRef .tc main_v46) = shapeCast S1x8 (m ((c : Thread nD τ).loc main_arg5)) Facts₀.shapeCasts_S8_S1x8 := by
  refine (b2_of (W5 m ρ c)).trans ?_
  rw [W5_main_arg5, W1_arg5]
theorem W7_bf (c : Dev nD) : W7 m ρ c (Proc.devRef .tc main_v47) = shapeCast S1x4 (m ((c : Thread nD τ).loc main_arg7)) Facts₀.shapeCasts_S4_S1x4 := by
  refine (bf_of (W5 m ρ c)).trans ?_
  rw [W5_main_arg7, W1_arg7]
theorem W7_w (c : Dev nD) : W7 m ρ c (Proc.devRef .tc main_arg6) = (m ((c : Thread nD τ).loc main_arg6)) :=
  calc W7 m ρ c (Proc.devRef .tc main_arg6)
    _ = W6 m ρ c (Proc.devRef .tc main_arg6) := by kept_across hostOps2_1
    _ = W5 m ρ c (Proc.devRef .tc main_arg6) := by kept_across hostOps2
    _ = (m ((c : Thread nD τ).loc main_arg6)) := (W5_main_arg6 m ρ c).trans (W1_arg6 m ρ c)

section
variable (c : Dev nD) (hedge : ∀ j, ((m ((c : Thread nD τ).loc main_arg1)) j).toNat < 100000)
include hedge

theorem W7_a2 : W7 m ρ c (Proc.devRef .tc main_v45) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W7_agg, W5_h2 m ρ c hedge, W5_main_v5, W5_main_v6, W5_main_v28, W1_src, W1_dst, W1_norm]
  exact Bridge.agg8_eq _ hedge _ _ _ _

/-! ## After region 2: the result -/

/-- The kernel program's result array is the reference's result term of the launch arguments. -/
theorem W8_out : W8 m ρ c (Proc.devRef .tc main_v48)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 4).trans ((Region2.value (V7 m ρ) c).trans (by
    rw [show V7 m ρ c main_v45 = _ from W7_a2 m ρ c hedge, show V7 m ρ c main_v46 = _ from W7_b2 m ρ c,
      show V7 m ρ c main_arg6 = (m ((c : Thread nD τ).loc main_arg6)) from W7_w m ρ c, show V7 m ρ c main_v47 = _ from W7_bf m ρ c]
    exact (Cert.ReferenceIdeal.RefStages.stage2 _ _ _ _ _ _ _ _ _ (fun k => row8 _ k) _ (fun i => row4 _ i)).symm))
end

end Cert.KernelIdeal.Fold

end
-- ==== Proof.lean ====
/-
  A two-layer graph convolution with a linear head, out = relu (Â · relu (Â · x W₁ + b₁) W₂ + b₂) W_fc + b_fc, where
  Â sums, into every node, its in-neighbours' rows (self loops added) scaled by deg^(-1/2) of both ends.
  The kernel program computes the three dense products x W₁, relu (a₁ + b₁) W₂ and relu (a₂ + b₂) W_fc + b_fc on the
  matrix unit, ten row blocks of 10000 nodes each, and leaves the edge-driven sums a₁ = Â (x W₁), a₂ = Â h₂ to the
  host; the reference does every step on the host. Over the extended reals the two agree:
    · a block product accumulated from zero, its operands narrowed to bf16 (the identity here), is at each entry the
      same finite sum of products as the whole-array contraction, and the ten row blocks tile the result;
    · the host steps are the same operations in both programs, except that the kernel's row gather tests its
      (wrapped) index against [0, N − 1] and fills a NaN pattern where the test fails, while the reference's gather
      has no test. Under the precondition every entry of the edge array is a node number, so the test never fails and
      the two gathers are one.
  No algebraic law is needed beyond reading both contractions as the same sum; finiteness of the float inputs is
  not used. The frames of the two kernel programs are the generated ones; the reference's frame is its run with
  the result dropped; the idealization rewrote nothing.
-/
import proofs.«414693_j1348619730951_2_alg».proof.Defs
import proofs.«414693_j1348619730951_2_alg».proof.Proof.Gen.Kernel
import proofs.«414693_j1348619730951_2_alg».proof.Proof.Gen.Kernel.Skeleton
import proofs.«414693_j1348619730951_2_alg».proof.Proof.Gen.Kernel.Launch
import proofs.«414693_j1348619730951_2_alg».proof.Proof.Gen.Kernel.Points
import proofs.«414693_j1348619730951_2_alg».proof.Proof.Gen.Kernel.Frame
import proofs.«414693_j1348619730951_2_alg».proof.Proof.Gen.KernelIdeal
import proofs.«414693_j1348619730951_2_alg».proof.Proof.Gen.KernelIdeal.Skeleton
import proofs.«414693_j1348619730951_2_alg».proof.Proof.Gen.KernelIdeal.Launch
import proofs.«414693_j1348619730951_2_alg».proof.Proof.Gen.KernelIdeal.Points
import proofs.«414693_j1348619730951_2_alg».proof.Proof.Gen.KernelIdeal.Frame
import proofs.«414693_j1348619730951_2_alg».proof.Proof.Gen.ReferenceIdeal
import proofs.«414693_j1348619730951_2_alg».proof.Proof.Gen.Pre_finite_inputs
import proofs.«414693_j1348619730951_2_alg».proof.Proof.Gen.ReferenceIdeal.Run
import proofs.«414693_j1348619730951_2_alg».proof.Proof.Gen.ReferenceIdeal.Read
import proofs.«414693_j1348619730951_2_alg».proof.Proof.KRun
import proofs.«414693_j1348619730951_2_alg».proof.Proof.Mask
import proofs.«414693_j1348619730951_2_alg».proof.Proof.Fold
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with relu (Â · relu (Â · x W₁ + b₁) W₂ + b₂) W_fc + b_fc of their (agreeing) arguments: the
    kernel program's result array, walked back through its regions and host stretches, is the reference's result term. -/
theorem algebraic : Cert.algebraic_KernelIdeal_ReferenceIdeal := by
  intro m ρ m' ρ' hpre hagree
  have hedge : ∀ (c : Dev Cert.KernelIdeal.nD) j, ((m ((c.tc : Thread Cert.KernelIdeal.nD Cert.KernelIdeal.τ).loc Cert.KernelIdeal.main_arg1)) j).toNat < 100000 := fun c =>
    Cert.KernelIdeal.Mask.edges_of_pre _ _ _ _ _ _ _ _ (hpre c)
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W8_out m ρ c (hedge c)), (h c).2⟩)
      (Cert.KernelIdeal.KRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v97_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
